-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x2048 : Shape := ⟨2, ![2048, 2048]⟩
abbrev S2048x2560 : Shape := ⟨2, ![2048, 2560]⟩
abbrev S2048 : Shape := ⟨1, ![2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x2560 : S_.BroadcastsInDim S2048x2560 (![] : Fin 0 → Fin S2048x2560.rank)
  reducesTo_S2048x2560_S_d0_1 : S2048x2560.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048x2560 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2560 .f32 := Host.absf main_arg11
  let main_cst_20 : FVec F S_ .f32 := constant S_ .f32 0x7F800000#32
  let main_v55 : FVec F S2048x2560 .f32 := broadcastInDim S2048x2560 ![] bcast_S_S2048x2560 main_cst_20
  let main_v56 : IVec S2048x2560 1 := cmpf .olt main_v54 main_v55
  let main_c_21 : IVec S_ 1 := constantI S_ 1 1#1
  let main_v57 : IVec S_ 1 := (fun x v => Host.reduce IntOp.andi x v reducesTo_S2048x2560_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S2048x2560 .f32) (main_arg8 : FVec F S2048 .f32) (main_arg9 : FVec F S2048x2560 .f32) (main_arg10 : FVec F S2048 .f32) (main_arg11 : FVec F S2048x2560 .f32) (main_arg12 : FVec F S2048 .f32) (main_v33 : IVec S_ 1) : IVec S_ 1 :=
  let main_v34 : FVec F S2048x2560 .f32 := Host.absf main_arg7
  let main_cst_12 : FVec F S_ .f32 := constant S_ .f32 0x7F800000#32
  let main_v35 : FVec F S2048x2560 .f32 := broadcastInDim S2048x2560 ![] bcast_S_S2048x2560 main_cst_12
  let main_v36 : IVec S2048x2560 1 := cmpf .olt main_v34 main_v35
  let main_c_13 : IVec S_ 1 := constantI S_ 1 1#1
  let main_v37 : IVec S_ 1 := (fun x v => Host.reduce IntOp.andi x v reducesTo_S2048x2560_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2560 .f32 := Host.absf main_arg9
  let main_cst_16 : FVec F S_ .f32 := constant S_ .f32 0x7F800000#32
  let main_v45 : FVec F S2048x2560 .f32 := broadcastInDim S2048x2560 ![] bcast_S_S2048x2560 main_cst_16
  let main_v46 : IVec S2048x2560 1 := cmpf .olt main_v44 main_v45
  let main_c_17 : IVec S_ 1 := constantI S_ 1 1#1
  let main_v47 : IVec S_ 1 := (fun x v => Host.reduce IntOp.andi x v reducesTo_S2048x2560_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048 .f32) (main_arg5 : FVec F S2048x2560 .f32) (main_arg6 : FVec F S2048 .f32) (main_arg7 : FVec F S2048x2560 .f32) (main_arg8 : FVec F S2048 .f32) (main_arg9 : FVec F S2048x2560 .f32) (main_arg10 : FVec F S2048 .f32) (main_arg11 : FVec F S2048x2560 .f32) (main_arg12 : FVec F S2048 .f32) (main_v13 : IVec S_ 1) (main_v16 : IVec S2048x2560 1) : IVec S_ 1 :=
  let main_c_5 : IVec S_ 1 := constantI S_ 1 1#1
  let main_v17 : IVec S_ 1 := (fun x v => Host.reduce IntOp.andi x v reducesTo_S2048x2560_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2560 .f32 := Host.absf main_arg5
  let main_cst_8 : FVec F S_ .f32 := constant S_ .f32 0x7F800000#32
  let main_v25 : FVec F S2048x2560 .f32 := broadcastInDim S2048x2560 ![] bcast_S_S2048x2560 main_cst_8
  let main_v26 : IVec S2048x2560 1 := cmpf .olt main_v24 main_v25
  let main_c_9 : IVec S_ 1 := constantI S_ 1 1#1
  let main_v27 : IVec S_ 1 := (fun x v => Host.reduce IntOp.andi x v reducesTo_S2048x2560_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x512 .f32) (main_arg1 : FVec F S2048x2048 .f32) (main_arg2 : FVec F S2048x2560 .f32) (main_arg3 : FVec F S2048x2560 .f32) (main_arg4 : FVec F S2048 .f32) (main_arg5 : FVec F S2048x2560 .f32) (main_arg6 : FVec F S2048 .f32) (main_arg7 : FVec F S2048x2560 .f32) (main_arg8 : FVec F S2048 .f32) (main_arg9 : FVec F S2048x2560 .f32) (main_arg10 : FVec F S2048 .f32) (main_arg11 : FVec F S2048x2560 .f32) (main_arg12 : FVec F S2048 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2560 .f32 := Host.absf main_arg2
  let main_cst_2 : FVec F S_ .f32 := constant S_ .f32 0x7F800000#32
  let main_v10 : FVec F S2048x2560 .f32 := broadcastInDim S2048x2560 ![] bcast_S_S2048x2560 main_cst_2
  let main_v11 : IVec S2048x2560 1 := cmpf .olt main_v9 main_v10
  let main_c_3 : IVec S_ 1 := constantI S_ 1 1#1
  let main_v12 : IVec S_ 1 := (fun x v => Host.reduce IntOp.andi x v reducesTo_S2048x2560_S_d0_1 h_S_) main_v11 main_c_3
  let main_v13 : IVec S_ 1 := andi main_v8 main_v12
  let main_v14 : FVec F S2048x2560 .f32 := Host.absf main_arg3
  let main_cst_4 : FVec F S_ .f32 := constant S_ .f32 0x7F800000#32
  let main_v15 : FVec F S2048x2560 .f32 := broadcastInDim S2048x2560 ![] bcast_S_S2048x2560 main_cst_4
  let main_v16 : IVec S2048x2560 1 := cmpf .olt main_v14 main_v15
  fn_part1 (F := F) main_arg4 main_arg5 main_arg6 main_arg7 main_arg8 main_arg9 main_arg10 main_arg11 main_arg12 main_v13 main_v16
-- ==== Kernel.lean ====
abbrev S2048x512 : Shape := ⟨2, ![2048, 512]⟩
abbrev S2048x2048 : Shape := ⟨2, ![2048, 2048]⟩
abbrev S2048x2560 : Shape := ⟨2, ![2048, 2560]⟩
abbrev S2048 : Shape := ⟨1, ![2048]⟩
abbrev S1x2048 : Shape := ⟨2, ![1, 2048]⟩
abbrev S128x2560 : Shape := ⟨2, ![128, 2560]⟩
abbrev S1x128 : Shape := ⟨2, ![1, 128]⟩
abbrev S2048x128 : Shape := ⟨2, ![2048, 128]⟩

abbrev nBuf : Space → Nat
  | .hbm => 28
  | .vmem => 27
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2560, .f32⟩
  | .hbm, ⟨3, _⟩ => ⟨S2048x2560, .f32⟩
  | .hbm, ⟨4, _⟩ => ⟨S2048, .f32⟩
  | .hbm, ⟨5, _⟩ => ⟨S2048x2560, .f32⟩
  | .hbm, ⟨6, _⟩ => ⟨S2048, .f32⟩
  | .hbm, ⟨7, _⟩ => ⟨S2048x2560, .f32⟩
  | .hbm, ⟨8, _⟩ => ⟨S2048, .f32⟩
  | .hbm, ⟨9, _⟩ => ⟨S2048x2560, .f32⟩
  | .hbm, ⟨10, _⟩ => ⟨S2048, .f32⟩
  | .hbm, ⟨11, _⟩ => ⟨S2048x2560, .f32⟩
  | .hbm, ⟨12, _⟩ => ⟨S2048, .f32⟩
  | .hbm, ⟨13, _⟩ => ⟨S2048x2560, .f32⟩
  | .hbm, ⟨14, _⟩ => ⟨S2048x2560, .bf16⟩
  | .hbm, ⟨15, _⟩ => ⟨S2048x2560, .bf16⟩
  | .hbm, ⟨16, _⟩ => ⟨S2048x2560, .bf16⟩
  | .hbm, ⟨17, _⟩ => ⟨S2048x2560, .bf16⟩
  | .hbm, ⟨18, _⟩ => ⟨S2048x2560, .bf16⟩
  | .hbm, ⟨19, _⟩ => ⟨S2048x2560, .bf16⟩
  | .hbm, ⟨20, _⟩ => ⟨S2048x2560, .bf16⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S2048x2048, .f32⟩
  | .hbm, ⟨27, _⟩ => ⟨S2048x2048, .f32⟩
  | .local _ .vmem, ⟨0, _⟩ => ⟨S2048x2560, .bf16⟩
  | .local _ .vmem, ⟨1, _⟩ => ⟨S128x2560, .bf16⟩
  | .local _ .vmem, ⟨2, _⟩ => ⟨S128x2560, .bf16⟩
  | .local _ .vmem, ⟨3, _⟩ => ⟨S128x2560, .bf16⟩
  | .local _ .vmem, ⟨4, _⟩ => ⟨S128x2560, .bf16⟩
  | .local _ .vmem, ⟨5, _⟩ => ⟨S1x128, .f32⟩
  | .local _ .vmem, ⟨6, _⟩ => ⟨S1x128, .f32⟩
  | .local _ .vmem, ⟨7, _⟩ => ⟨S128x2560, .bf16⟩
  | .local _ .vmem, ⟨8, _⟩ => ⟨S128x2560, .bf16⟩
  | .local _ .vmem, ⟨9, _⟩ => ⟨S1x128, .f32⟩
  | .local _ .vmem, ⟨10, _⟩ => ⟨S1x128, .f32⟩
  | .local _ .vmem, ⟨11, _⟩ => ⟨S128x2560, .bf16⟩
  | .local _ .vmem, ⟨12, _⟩ => ⟨S128x2560, .bf16⟩
  | .local _ .vmem, ⟨13, _⟩ => ⟨S1x128, .f32⟩
  | .local _ .vmem, ⟨14, _⟩ => ⟨S1x128, .f32⟩
  | .local _ .vmem, ⟨15, _⟩ => ⟨S128x2560, .bf16⟩
  | .local _ .vmem, ⟨16, _⟩ => ⟨S128x2560, .bf16⟩
  | .local _ .vmem, ⟨17, _⟩ => ⟨S1x128, .f32⟩
  | .local _ .vmem, ⟨18, _⟩ => ⟨S1x128, .f32⟩
  | .local _ .vmem, ⟨19, _⟩ => ⟨S128x2560, .bf16⟩
  | .local _ .vmem, ⟨20, _⟩ => ⟨S128x2560, .bf16⟩
  | .local _ .vmem, ⟨21, _⟩ => ⟨S1x128, .f32⟩
  | .local _ .vmem, ⟨22, _⟩ => ⟨S1x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S2048x512_S2048x2048_S2048x2560_d1 : Shape.Concatenates [S2048x512, S2048x2048] S2048x2560 1
  bitsLt_bf16_f32 : FTy.bits .bf16 < FTy.bits .f32
  shapeCasts_S2048_S1x2048 : S2048.ShapeCasts S1x2048
  inb_S2048x2560_S2048x2560_0_0 : ∀ a, (![0, 0] : Fin 2 → Nat) a + S2048x2560.size a ≤ S2048x2560.size a
  h_S2048x2560 : 0 < S2048x2560.numel
  shapeCasts_S2048x2560_S2048x2560 : S2048x2560.ShapeCasts S2048x2560
  inb_S128x2560_S128x2560_0_0 : ∀ a, (![0, 0] : Fin 2 → Nat) a + S128x2560.size a ≤ S128x2560.size a
  h_S128x2560 : 0 < S128x2560.numel
  shapeCasts_S128x2560_S128x2560 : S128x2560.ShapeCasts S128x2560
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S2048x2560_S128x2560_S2048x128_1_1_0_0_n_n_wf : DotDims.WF S2048x2560 S128x2560 S2048x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2560.size a ≤ S2048x2560.size a
  hwx0_0 : ∀ i : grid0.Coords, EltTy.bits .bf16 = 32 ∨ (Rect.block (s := S2048x2560) S2048x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2560.size a ≤ S2048x2560.size a
  hwx0_1 : ∀ i : grid0.Coords, EltTy.bits .bf16 = 32 ∨ (Rect.block (s := S2048x2560) S128x2560.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2560.size a ≤ S2048x2560.size a
  hwx0_2 : ∀ i : grid0.Coords, EltTy.bits .bf16 = 32 ∨ (Rect.block (s := S2048x2560) S128x2560.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x2048.size a
  hwx0_3 : ∀ i : grid0.Coords, EltTy.bits .f32 = 32 ∨ (Rect.block (s := S1x2048) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2560.size a ≤ S2048x2560.size a
  hwx0_4 : ∀ i : grid0.Coords, EltTy.bits .bf16 = 32 ∨ (Rect.block (s := S2048x2560) S128x2560.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x2048.size a
  hwx0_5 : ∀ i : grid0.Coords, EltTy.bits .f32 = 32 ∨ (Rect.block (s := S1x2048) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2560.size a ≤ S2048x2560.size a
  hwx0_6 : ∀ i : grid0.Coords, EltTy.bits .bf16 = 32 ∨ (Rect.block (s := S2048x2560) S128x2560.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x2048.size a
  hwx0_7 : ∀ i : grid0.Coords, EltTy.bits .f32 = 32 ∨ (Rect.block (s := S1x2048) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2560.size a ≤ S2048x2560.size a
  hwx0_8 : ∀ i : grid0.Coords, EltTy.bits .bf16 = 32 ∨ (Rect.block (s := S2048x2560) S128x2560.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x2048.size a
  hwx0_9 : ∀ i : grid0.Coords, EltTy.bits .f32 = 32 ∨ (Rect.block (s := S1x2048) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2560.size a ≤ S2048x2560.size a
  hwx0_10 : ∀ i : grid0.Coords, EltTy.bits .bf16 = 32 ∨ (Rect.block (s := S2048x2560) S128x2560.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x2048.size a
  hwx0_11 : ∀ i : grid0.Coords, EltTy.bits .f32 = 32 ∨ (Rect.block (s := S1x2048) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x128.size a ≤ S2048x2048.size a
  hwx0_12 : ∀ i : grid0.Coords, EltTy.bits .f32 = 32 ∨ (Rect.block (s := S2048x2048) S2048x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x128.size a ≤ S2048x2048.size a
  hwx0_13 : ∀ i : grid0.Coords, EltTy.bits .f32 = 32 ∨ (Rect.block (s := S2048x2048) S2048x128.size (cc0_transform_13 i) (hinb0_13 i)).WholeWords (EltTy.packing .f32)

variable [Facts₀]

def dot_S2048x2560_S128x2560_S2048x128_1_1_0_0_n_n : DotDims S2048x2560 S128x2560 S2048x128 where
  lhsContracting := [1]
  rhsContracting := [1]
  lhsNonContracting := [0]
  rhsNonContracting := [0]
  lhsBatch := []
  rhsBatch := []
  wf := dot_S2048x2560_S128x2560_S2048x128_1_1_0_0_n_n_wf

abbrev win0_0 : Pipeline.Window sig grid0 :=
  Pipeline.Window.ofSpec (Memref.whole main_v1) S2048x2560.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x2560.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x2560.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x2560.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S128x2560.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7) S128x2560.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v13_0) S2048x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13_1) S2048x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048x2048 : Shape := ⟨2, ![2048, 2048]⟩
abbrev S2048x2560 : Shape := ⟨2, ![2048, 2560]⟩
abbrev S2048 : Shape := ⟨1, ![2048]⟩
abbrev S1x2048x2560 : Shape := ⟨3, ![1, 2048, 2560]⟩
abbrev S5x2048x2560 : Shape := ⟨3, ![5, 2048, 2560]⟩
abbrev S1x2048 : Shape := ⟨2, ![1, 2048]⟩
abbrev S5x2048 : Shape := ⟨2, ![5, 2048]⟩
abbrev S5x2048x2048 : Shape := ⟨3, ![5, 2048, 2048]⟩
abbrev S5x1x2048 : Shape := ⟨3, ![5, 1, 2048]⟩
abbrev S1x2048x2048 : Shape := ⟨3, ![1, 2048, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2560, .f32⟩
  | .hbm, ⟨3, _⟩ => ⟨S2048x2560, .f32⟩
  | .hbm, ⟨4, _⟩ => ⟨S2048, .f32⟩
  | .hbm, ⟨5, _⟩ => ⟨S2048x2560, .f32⟩
  | .hbm, ⟨6, _⟩ => ⟨S2048, .f32⟩
  | .hbm, ⟨7, _⟩ => ⟨S2048x2560, .f32⟩
  | .hbm, ⟨8, _⟩ => ⟨S2048, .f32⟩
  | .hbm, ⟨9, _⟩ => ⟨S2048x2560, .f32⟩
  | .hbm, ⟨10, _⟩ => ⟨S2048, .f32⟩
  | .hbm, ⟨11, _⟩ => ⟨S2048x2560, .f32⟩
  | .hbm, ⟨12, _⟩ => ⟨S2048, .f32⟩
  | .hbm, ⟨13, _⟩ => ⟨S2048x2560, .f32⟩
  | .hbm, ⟨14, _⟩ => ⟨S1x2048x2560, .f32⟩
  | .hbm, ⟨15, _⟩ => ⟨S1x2048x2560, .f32⟩
  | .hbm, ⟨16, _⟩ => ⟨S1x2048x2560, .f32⟩
  | .hbm, ⟨17, _⟩ => ⟨S1x2048x2560, .f32⟩
  | .hbm, ⟨18, _⟩ => ⟨S1x2048x2560, .f32⟩
  | .hbm, ⟨19, _⟩ => ⟨S5x2048x2560, .f32⟩
  | .hbm, ⟨20, _⟩ => ⟨S1x2048x2560, .f32⟩
  | .hbm, ⟨21, _⟩ => ⟨S5x2048x2560, .f32⟩
  | .hbm, ⟨22, _⟩ => ⟨S5x2048x2560, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S5x2048, .f32⟩
  | .hbm, ⟨29, _⟩ => ⟨S5x2048x2048, .f32⟩
  | .hbm, ⟨30, _⟩ => ⟨S5x2048x2048, .f32⟩
  | .hbm, ⟨31, _⟩ => ⟨S5x1x2048, .f32⟩
  | .hbm, ⟨32, _⟩ => ⟨S5x2048x2048, .f32⟩
  | .hbm, ⟨33, _⟩ => ⟨S5x2048x2048, .f32⟩
  | .hbm, ⟨34, _⟩ => ⟨S1x2048x2048, .f32⟩
  | .hbm, ⟨35, _⟩ => ⟨S2048x2048, .f32⟩
  | .hbm, ⟨36, _⟩ => ⟨S1x2048x2048, .f32⟩
  | .hbm, ⟨37, _⟩ => ⟨S2048x2048, .f32⟩
  | .hbm, ⟨38, _⟩ => ⟨S1x2048x2048, .f32⟩
  | .hbm, ⟨39, _⟩ => ⟨S2048x2048, .f32⟩
  | .hbm, ⟨40, _⟩ => ⟨S1x2048x2048, .f32⟩
  | .hbm, ⟨41, _⟩ => ⟨S2048x2048, .f32⟩
  | .hbm, ⟨42, _⟩ => ⟨S1x2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_cst_0 : Ref sig .tc := ⟨.hbm, 52, rfl⟩
abbrev main_v38 : Ref sig .tc := ⟨.hbm, 53, rfl⟩
abbrev main_v39 : Ref sig .tc := ⟨.hbm, 54, rfl⟩
abbrev main_cst_1 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  concatenates_S2048x512_S2048x2048_S2048x2560_d1 : Shape.Concatenates [S2048x512, S2048x2048] S2048x2560 1
  bcast_S2048x2560_S1x2048x2560_1_2 : S2048x2560.BroadcastsInDim S1x2048x2560 (![1, 2] : Fin 2 → Fin S1x2048x2560.rank)
  concatenates_S1x2048x2560_S1x2048x2560_S1x2048x2560_S1x2048x2560_S1x2048x2560_S5x2048x2560_d0 : Shape.Concatenates [S1x2048x2560, S1x2048x2560, S1x2048x2560, S1x2048x2560, S1x2048x2560] S5x2048x2560 0
  bcast_S1x2048x2560_S5x2048x2560_0_1_2 : S1x2048x2560.BroadcastsInDim S5x2048x2560 (![0, 1, 2] : Fin 3 → Fin S5x2048x2560.rank)
  bcast_S2048_S1x2048_1 : S2048.BroadcastsInDim S1x2048 (![1] : Fin 1 → Fin S1x2048.rank)
  concatenates_S1x2048_S1x2048_S1x2048_S1x2048_S1x2048_S5x2048_d0 : Shape.Concatenates [S1x2048, S1x2048, S1x2048, S1x2048, S1x2048] S5x2048 0
  transposes_S5x2048x2048_S5x2048x2048_0_2_1 : S5x2048x2048.Transposes [0, 2, 1] S5x2048x2048
  bcast_S5x2048_S5x1x2048_0_2 : S5x2048.BroadcastsInDim S5x1x2048 (![0, 2] : Fin 2 → Fin S5x1x2048.rank)
  bcast_S5x1x2048_S5x2048x2048_0_1_2 : S5x1x2048.BroadcastsInDim S5x2048x2048 (![0, 1, 2] : Fin 3 → Fin S5x2048x2048.rank)
  slices_S5x2048x2048_S1x2048x2048_0_0_0 : S5x2048x2048.Slices ![0, 0, 0] S1x2048x2048
  shapeCasts_S1x2048x2048_S2048x2048 : S1x2048x2048.ShapeCasts S2048x2048
  slices_S5x2048x2048_S1x2048x2048_1_0_0 : S5x2048x2048.Slices ![1, 0, 0] S1x2048x2048
  slices_S5x2048x2048_S1x2048x2048_2_0_0 : S5x2048x2048.Slices ![2, 0, 0] S1x2048x2048
  slices_S5x2048x2048_S1x2048x2048_3_0_0 : S5x2048x2048.Slices ![3, 0, 0] S1x2048x2048
  slices_S5x2048x2048_S1x2048x2048_4_0_0 : S5x2048x2048.Slices ![4, 0, 0] S1x2048x2048
  bcast_S_S2048x2048 : S_.BroadcastsInDim S2048x2048 (![] : Fin 0 → Fin S2048x2048.rank)
  dot_S5x2048x2560_S2048x2560_S5x2048x2048_2_1_01_0_n_n_wf : DotDims.WF S5x2048x2560 S2048x2560 S5x2048x2048 [2] [1] [0, 1] [0] [] []

variable [Facts₀]

def dot_S5x2048x2560_S2048x2560_S5x2048x2048_2_1_01_0_n_n : DotDims S5x2048x2560 S2048x2560 S5x2048x2048 where
  lhsContracting := [2]
  rhsContracting := [1]
  lhsNonContracting := [0, 1]
  rhsNonContracting := [0]
  lhsBatch := []
  rhsBatch := []
  wf := dot_S5x2048x2560_S2048x2560_S5x2048x2048_2_1_01_0_n_n_wf

class Facts : Prop extends Facts₀ where

variable [Facts]
-- ==== Proof.CellSpec.lean ====
/-
  The liquid-cell update as one function of the argument arrays, index by index, at the ideal instance.

  Every one of the five masked linear layers is, at batch row `b` and hidden unit `o`,
      lin b o = (Σ_k xc[b,k] · (W[o,k] · mask[o,k])) + bias[o],
  a sum over the 2560 input features of the concatenated input `xc = [x, hidden]`. The new hidden
  state blends the two candidate activations by a logistic gate,
      new_hidden = tanh g · (1 − σ) + σ · tanh h,   σ = logistic (fg + fh),
  and the prediction adds the fifth layer: y = p + new_hidden. The literal 1 is kept as its f32
  pattern, the same word in both programs. The logistic function on the extended reals is
  1 / (1 + e^(−z)) with the corner values of the division and the exponential, which is the
  expression a host program spells with negate, exponential, add and divide.
-/
import Idealize.ShloMosaic.PureOps.Ideal
import Idealize.ShloMosaic.PureOps.Ideal.Laws
import Idealize.ShloMosaic.Lib.ValueIdx
import Idealize.ShloMosaic.Lib.IdealHost

noncomputable section

namespace Cert.LiquidCell

open Idealize.ShloMosaic Idealize.ShloMosaic.ValueIdx

/-- The f32 pattern of 1.0, as both programs print it. -/
abbrev one32 : EReal := Ideal.ofBits .f32 0x3F800000#32

/-- One masked linear layer at batch row `b` and hidden unit `o`: the inner product of row `b` of the
    concatenated input with row `o` of the masked weight, plus the unit's bias. -/
def lin (xc W M : (⟨2, ![2048, 2560]⟩ : Shape).Idx → EReal) (bias : (⟨1, ![2048]⟩ : Shape).Idx → EReal)
    (b o : Fin 2048) : EReal :=
  (∑ k : Fin 2560, xc (ix2 b k) * (W (ix2 o k) * M (ix2 o k))) + bias (ix1 o)

/-- The gated blend of the two candidates: tanh g · (1 − σ) + σ · tanh h with σ = logistic (fg + fh). -/
def blend (g h fg fh : EReal) : EReal :=
  Ideal.tanh g * (one32 - Ideal.logistic (fg + fh)) + Ideal.logistic (fg + fh) * Ideal.tanh h

/-- The new hidden state, as one function of the arrays. -/
def newHidden (xc M Wg : (⟨2, ![2048, 2560]⟩ : Shape).Idx → EReal) (bg : (⟨1, ![2048]⟩ : Shape).Idx → EReal)
    (Wh : (⟨2, ![2048, 2560]⟩ : Shape).Idx → EReal) (bh : (⟨1, ![2048]⟩ : Shape).Idx → EReal)
    (Wfg : (⟨2, ![2048, 2560]⟩ : Shape).Idx → EReal) (bfg : (⟨1, ![2048]⟩ : Shape).Idx → EReal)
    (Wfh : (⟨2, ![2048, 2560]⟩ : Shape).Idx → EReal) (bfh : (⟨1, ![2048]⟩ : Shape).Idx → EReal) :
    (⟨2, ![2048, 2048]⟩ : Shape).Idx → EReal := fun i =>
  blend (lin xc Wg M bg (i 0) (i 1)) (lin xc Wh M bh (i 0) (i 1)) (lin xc Wfg M bfg (i 0) (i 1)) (lin xc Wfh M bfh (i 0) (i 1))

/-- The prediction: the fifth layer plus the new hidden state. -/
def prediction (xc M Wg : (⟨2, ![2048, 2560]⟩ : Shape).Idx → EReal) (bg : (⟨1, ![2048]⟩ : Shape).Idx → EReal)
    (Wh : (⟨2, ![2048, 2560]⟩ : Shape).Idx → EReal) (bh : (⟨1, ![2048]⟩ : Shape).Idx → EReal)
    (Wfg : (⟨2, ![2048, 2560]⟩ : Shape).Idx → EReal) (bfg : (⟨1, ![2048]⟩ : Shape).Idx → EReal)
    (Wfh : (⟨2, ![2048, 2560]⟩ : Shape).Idx → EReal) (bfh : (⟨1, ![2048]⟩ : Shape).Idx → EReal)
    (Wp : (⟨2, ![2048, 2560]⟩ : Shape).Idx → EReal) (bp : (⟨1, ![2048]⟩ : Shape).Idx → EReal) :
    (⟨2, ![2048, 2048]⟩ : Shape).Idx → EReal := fun i =>
  lin xc Wp M bp (i 0) (i 1) + newHidden xc M Wg bg Wh bh Wfg bfg Wfh bfh i

/-- The host's spelling of the logistic function — 1 / (1 + e^(−z)), with the literal ones as f32
    patterns — is the logistic function. -/
theorem logistic_spelled (z : EReal) :
    Ideal.div one32 (one32 + Ideal.exp (-z)) = Ideal.logistic z := by
  unfold one32
  rw [Ideal.ofBits_one_f32]
  rfl

/-- The same layer with the product inside the sum taken in the other order, as a host
    `dot_general` with the masked weight on the left prints it: multiplication of extended reals
    commutes, term by term. -/
theorem lin_comm (xc W M : (⟨2, ![2048, 2560]⟩ : Shape).Idx → EReal) (bias : (⟨1, ![2048]⟩ : Shape).Idx → EReal)
    (b o : Fin 2048) :
    (∑ k : Fin 2560, (W (ix2 o k) * M (ix2 o k)) * xc (ix2 b k)) + bias (ix1 o) = lin xc W M bias b o := by
  unfold lin
  exact congrArg (· + bias (ix1 o)) (Finset.sum_congr rfl fun k _ => mul_comm _ _)

end Cert.LiquidCell

end
-- ==== Proof.KernelBlock.lean ====
/-
  What one grid point of the kernel computes, read at an index of its [2048, 128] output block.

  The body multiplies each weight block by the mask block lane by lane, contracts the whole
  [2048, 2560] input block against it on the matrix unit into a zero accumulator, and adds the
  bias lane: at row `b` and lane `q` that is Σ_k x[b,k] · (w[q,k] · mask[q,k]) + bias[0,q], a sum over the
  2560 features. The two stores are then the gated blend of four such layers, and the fifth layer
  plus that blend.
-/
import proofs.«113862_j35175782154587_1_alg».proof.Proof.Gen.KernelIdeal.Skeleton
import proofs.«113862_j35175782154587_1_alg».proof.Proof.CellSpec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.LiquidCell

/-! ## The matrix product at an index -/

theorem mm_lhs_0 (i : S2048x128.Idx) (q : dot_S2048x2560_S128x2560_S2048x128_1_1_0_0_n_n.contr.Idx) :
    (dot_S2048x2560_S128x2560_S2048x128_1_1_0_0_n_n.lhsIdx i q 0).val = (i 0).val := by
  unfold DotDims.lhsIdx
  rw [dif_neg (show ¬(0 : Fin S2048x2560.rank) ∈ dot_S2048x2560_S128x2560_S2048x128_1_1_0_0_n_n.lhsBatch by decide), dif_pos (show (0 : Fin S2048x2560.rank) ∈ dot_S2048x2560_S128x2560_S2048x128_1_1_0_0_n_n.lhsNonContracting by decide)]
  rfl
theorem mm_lhs_1 (i : S2048x128.Idx) (q : dot_S2048x2560_S128x2560_S2048x128_1_1_0_0_n_n.contr.Idx) :
    (dot_S2048x2560_S128x2560_S2048x128_1_1_0_0_n_n.lhsIdx i q 1).val = (q ⟨0, by decide⟩).val :=
  dot_S2048x2560_S128x2560_S2048x128_1_1_0_0_n_n.lhsIdx_val_of_single rfl i q
theorem mm_rhs_0 (i : S2048x128.Idx) (q : dot_S2048x2560_S128x2560_S2048x128_1_1_0_0_n_n.contr.Idx) :
    (dot_S2048x2560_S128x2560_S2048x128_1_1_0_0_n_n.rhsIdx i q 0).val = (i 1).val := by
  unfold DotDims.rhsIdx
  rw [dif_neg (show ¬(0 : Fin S128x2560.rank) ∈ dot_S2048x2560_S128x2560_S2048x128_1_1_0_0_n_n.rhsBatch by decide), dif_pos (show (0 : Fin S128x2560.rank) ∈ dot_S2048x2560_S128x2560_S2048x128_1_1_0_0_n_n.rhsNonContracting by decide)]
  rfl
theorem mm_rhs_1 (i : S2048x128.Idx) (q : dot_S2048x2560_S128x2560_S2048x128_1_1_0_0_n_n.contr.Idx) :
    (dot_S2048x2560_S128x2560_S2048x128_1_1_0_0_n_n.rhsIdx i q 1).val = (q ⟨0, by decide⟩).val :=
  dot_S2048x2560_S128x2560_S2048x128_1_1_0_0_n_n.rhsIdx_val_of_single rfl i q

/-- The matrix unit's product into the zero accumulator, at row `b` and lane `q`: both operands are
    contracted on their second axis, so it is the inner product of row `b` of the left operand with
    row `q` of the right. -/
theorem matmul_at (x : FVec Ideal S2048x2560 .bf16) (w : FVec Ideal S128x2560 .bf16) (b : Fin 2048) (q : Fin 128) :
    matmul dot_S2048x2560_S128x2560_S2048x128_1_1_0_0_n_n none x w (constant (F := Ideal) S2048x128 .f32 0x00000000#32) (ix2 b q)
      = ∑ k : Fin 2560, x (ix2 b k) * w (ix2 q k) := by
  simp only [matmul]
  rw [Ideal.matmul_constant_zero_apply, ← Equiv.sum_comp (contrEquiv1 dot_S2048x2560_S128x2560_S2048x128_1_1_0_0_n_n 2560 rfl rfl).symm]
  refine Finset.sum_congr rfl fun k _ => ?_
  have hk := contrEquiv1_symm_val dot_S2048x2560_S128x2560_S2048x128_1_1_0_0_n_n 2560 rfl rfl k
  have el : dot_S2048x2560_S128x2560_S2048x128_1_1_0_0_n_n.lhsIdx (ix2 b q) ((contrEquiv1 dot_S2048x2560_S128x2560_S2048x128_1_1_0_0_n_n 2560 rfl rfl).symm k) = ix2 b k := funext fun a => Fin.ext (by
    match a with
    | ⟨0, _⟩ => exact mm_lhs_0 _ _
    | ⟨1, _⟩ => exact (mm_lhs_1 _ _).trans hk)
  have er : dot_S2048x2560_S128x2560_S2048x128_1_1_0_0_n_n.rhsIdx (ix2 b q) ((contrEquiv1 dot_S2048x2560_S128x2560_S2048x128_1_1_0_0_n_n 2560 rfl rfl).symm k) = ix2 q k := funext fun a => Fin.ext (by
    match a with
    | ⟨0, _⟩ => exact mm_rhs_0 _ _
    | ⟨1, _⟩ => exact (mm_rhs_1 _ _).trans hk)
  rw [el, er]

/-! ## One layer of the block -/

/-- One masked layer inside the block: row `b` of the input block against row `q` of the weight block
    masked lane by lane, plus lane `q` of the bias row. -/
def blkLin (x0 : Vec Ideal S2048x2560 .bf16) (w mk : Vec Ideal S128x2560 .bf16) (bias : Vec Ideal S1x128 .f32)
    (b : Fin 2048) (q : Fin 128) : EReal :=
  (∑ k : Fin 2560, x0 (ix2 b k) * (w (ix2 q k) * mk (ix2 q k))) + bias (ix2 (0 : Fin 1) q)

/-- The bias row broadcast down the 2048 rows reads lane `q` of the row. -/
theorem bias_at (bias : Vec Ideal S1x128 .f32) (b : Fin 2048) (q : Fin 128) :
    broadcastTo S2048x128 (shapeCast S1x128 bias shapeCasts_S1x128_S1x128) broadcasts_S1x128_S2048x128 (ix2 b q) = bias (ix2 (0 : Fin 1) q) := by
  rw [shapeCast_self]
  exact broadcastTo_apply bias broadcasts_S1x128_S2048x128 (ix2 b q) (ix2 (0 : Fin 1) q) (fun a => match a with
    | ⟨0, _⟩ => by show 0 = (if (1 : Nat) = 1 then 0 else b.val); rw [if_pos rfl]
    | ⟨1, _⟩ => by show q.val = (if (128 : Nat) = 1 then 0 else q.val); rw [if_neg (by decide)])

/-- The masked product at an index. -/
theorem masked_mm_at (x0 : Vec Ideal S2048x2560 .bf16) (mk w : Vec Ideal S128x2560 .bf16) (b : Fin 2048) (q : Fin 128) :
    matmul dot_S2048x2560_S128x2560_S2048x128_1_1_0_0_n_n none (k0_pay3 x0)
        (mulf (shapeCast S128x2560 w shapeCasts_S128x2560_S128x2560) (k0_pay4 mk)) (constant (F := Ideal) S2048x128 .f32 0x00000000#32) (ix2 b q)
      = ∑ k : Fin 2560, x0 (ix2 b k) * (w (ix2 q k) * mk (ix2 q k)) := by
  unfold k0_pay3 k0_pay4
  rw [shapeCast_self, shapeCast_self, shapeCast_self]
  exact matmul_at x0 (mulf w mk) b q

/-- A layer that carries its bias: the masked product plus the bias lane. -/
theorem layer_at (x0 : Vec Ideal S2048x2560 .bf16) (mk w : Vec Ideal S128x2560 .bf16) (bias : Vec Ideal S1x128 .f32)
    (b : Fin 2048) (q : Fin 128) :
    addf (matmul dot_S2048x2560_S128x2560_S2048x128_1_1_0_0_n_n none (k0_pay3 x0)
        (mulf (shapeCast S128x2560 w shapeCasts_S128x2560_S128x2560) (k0_pay4 mk)) (constant (F := Ideal) S2048x128 .f32 0x00000000#32))
      (broadcastTo S2048x128 (shapeCast S1x128 bias shapeCasts_S1x128_S1x128) broadcasts_S1x128_S2048x128) (ix2 b q)
      = blkLin x0 w mk bias b q := by
  rw [addf_apply, masked_mm_at, bias_at]
  rfl

theorem pay5_at (x0 : Vec Ideal S2048x2560 .bf16) (mk w : Vec Ideal S128x2560 .bf16) (bias : Vec Ideal S1x128 .f32)
    (b : Fin 2048) (q : Fin 128) : k0_pay5 x0 mk w bias (ix2 b q) = blkLin x0 w mk bias b q :=
  layer_at x0 mk w bias b q

theorem pay6_at (x0 : Vec Ideal S2048x2560 .bf16) (mk w : Vec Ideal S128x2560 .bf16) (bias : Vec Ideal S1x128 .f32)
    (b : Fin 2048) (q : Fin 128) : k0_pay6 x0 mk w bias (ix2 b q) = blkLin x0 w mk bias b q :=
  layer_at x0 mk w bias b q

theorem pay7_at (x0 : Vec Ideal S2048x2560 .bf16) (mk w : Vec Ideal S128x2560 .bf16) (bias : Vec Ideal S1x128 .f32)
    (b : Fin 2048) (q : Fin 128) : k0_pay7 x0 mk w bias (ix2 b q) = blkLin x0 w mk bias b q :=
  layer_at x0 mk w bias b q

/-- The fourth layer's product and its bias reach the gate as two values; their sum is the layer. -/
theorem pay89_at (x0 : Vec Ideal S2048x2560 .bf16) (mk w : Vec Ideal S128x2560 .bf16) (bias : Vec Ideal S1x128 .f32)
    (b : Fin 2048) (q : Fin 128) : k0_pay8 x0 mk w (ix2 b q) + k0_pay9 bias (ix2 b q) = blkLin x0 w mk bias b q := by
  have e1 : k0_pay8 x0 mk w (ix2 b q) = ∑ k : Fin 2560, x0 (ix2 b k) * (w (ix2 q k) * mk (ix2 q k)) :=
    masked_mm_at x0 mk w b q
  have e2 : k0_pay9 bias (ix2 b q) = bias (ix2 (0 : Fin 1) q) := bias_at bias b q
  rw [e1, e2]
  rfl

/-! ## The two stores -/

/-- The blend of five values the body holds, lane by lane. -/
theorem pay1_at (g h fg fhm fhb : FVec Ideal S2048x128 .f32) (j : S2048x128.Idx) :
    k0_pay1 g h fg fhm fhb j = blend (g j) (h j) (fg j) (fhm j + fhb j) := rfl

/-- What the body stores to the new-hidden block, at row `b` and lane `q`. -/
theorem store_nh_at (x0 : Vec Ideal S2048x2560 .bf16) (x1 x2 : Vec Ideal S128x2560 .bf16) (x3 : Vec Ideal S1x128 .f32)
    (x4 : Vec Ideal S128x2560 .bf16) (x5 : Vec Ideal S1x128 .f32) (x6 : Vec Ideal S128x2560 .bf16) (x7 : Vec Ideal S1x128 .f32)
    (x8 : Vec Ideal S128x2560 .bf16) (x9 : Vec Ideal S1x128 .f32) (b : Fin 2048) (q : Fin 128) :
    k0_pay1 (k0_pay5 x0 x1 x2 x3) (k0_pay6 x0 x1 x4 x5) (k0_pay7 x0 x1 x6 x7) (k0_pay8 x0 x1 x8) (k0_pay9 x9) (ix2 b q)
      = blend (blkLin x0 x2 x1 x3 b q) (blkLin x0 x4 x1 x5 b q) (blkLin x0 x6 x1 x7 b q) (blkLin x0 x8 x1 x9 b q) := by
  rw [pay1_at, pay5_at, pay6_at, pay7_at, pay89_at]

/-- What the body stores to the prediction block, at row `b` and lane `q`. -/
theorem store_y_at (x0 : Vec Ideal S2048x2560 .bf16) (x1 x2 : Vec Ideal S128x2560 .bf16) (x3 : Vec Ideal S1x128 .f32)
    (x4 : Vec Ideal S128x2560 .bf16) (x5 : Vec Ideal S1x128 .f32) (x6 : Vec Ideal S128x2560 .bf16) (x7 : Vec Ideal S1x128 .f32)
    (x8 : Vec Ideal S128x2560 .bf16) (x9 : Vec Ideal S1x128 .f32) (x10 : Vec Ideal S128x2560 .bf16) (x11 : Vec Ideal S1x128 .f32)
    (b : Fin 2048) (q : Fin 128) :
    k0_pay2 (k0_pay3 x0) (k0_pay4 x1) (k0_pay5 x0 x1 x2 x3) (k0_pay6 x0 x1 x4 x5) (k0_pay7 x0 x1 x6 x7) (k0_pay8 x0 x1 x8) (k0_pay9 x9) x10 x11 (ix2 b q)
      = blkLin x0 x10 x1 x11 b q
        + blend (blkLin x0 x2 x1 x3 b q) (blkLin x0 x4 x1 x5 b q) (blkLin x0 x6 x1 x7 b q) (blkLin x0 x8 x1 x9 b q) := by
  have e : k0_pay2 (k0_pay3 x0) (k0_pay4 x1) (k0_pay5 x0 x1 x2 x3) (k0_pay6 x0 x1 x4 x5) (k0_pay7 x0 x1 x6 x7) (k0_pay8 x0 x1 x8) (k0_pay9 x9) x10 x11 (ix2 b q)
      = addf (matmul dot_S2048x2560_S128x2560_S2048x128_1_1_0_0_n_n none (k0_pay3 x0)
          (mulf (shapeCast S128x2560 x10 shapeCasts_S128x2560_S128x2560) (k0_pay4 x1)) (constant (F := Ideal) S2048x128 .f32 0x00000000#32))
        (broadcastTo S2048x128 (shapeCast S1x128 x11 shapeCasts_S1x128_S1x128) broadcasts_S1x128_S2048x128) (ix2 b q)
        + k0_pay1 (k0_pay5 x0 x1 x2 x3) (k0_pay6 x0 x1 x4 x5) (k0_pay7 x0 x1 x6 x7) (k0_pay8 x0 x1 x8) (k0_pay9 x9) (ix2 b q) := rfl
  rw [e, layer_at, store_nh_at]

end Cert.KernelIdeal.Block

end
-- ==== Proof.KernelArrays.lean ====
/-
  The kernel's two result arrays after the run, as the liquid-cell functions of the argument arrays.

  Before the region the host lines concatenate `x` and `hidden` along the feature axis, change the
  float format of that input, of the mask and of the five weights (the identity on extended reals),
  and reshape each bias to a row [1, 2048]. Grid point `t` (of 16) reads the whole input, rows
  128·t … 128·t+127 of the mask and of each weight, lanes 128·t … of each bias row, and writes columns
  128·t … 128·t+127 of both results; so output column `o = 128·t + q` holds the layers of hidden unit `o`.
-/
import proofs.«113862_j35175782154587_1_alg».proof.Proof.Gen.KernelIdeal.Value
import proofs.«113862_j35175782154587_1_alg».proof.Proof.KernelBlock
import Idealize.ShloMosaic.Lib.Pipeline.Value
import Idealize.ShloMosaic.Lib.ValueIdx
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Cert.LiquidCell Cert.KernelIdeal.Block
open Idealize.ShloMosaic.Pipeline (Dat)

variable (m : (ℓ : Loc nD τ sig) → Buf (Elt Ideal) ℓ) (ρ : Dev nD → PrngReg)

/-! ## The arrays the region finds -/

/-- The concatenated input `[x, hidden]`, as the host line builds it from the two arguments. -/
abbrev xcOf (c : Dev nD) : S2048x2560.Idx → EReal :=
  concatenate S2048x2560 1 [⟨S2048x512, m ((c : Thread nD τ).loc main_arg0)⟩, ⟨S2048x2048, m ((c : Thread nD τ).loc main_arg1)⟩] concatenates_S2048x512_S2048x2048_S2048x2560_d1

theorem V_xc (c : Dev nD) : (V m c main_v1 : S2048x2560.Idx → EReal) = xcOf m c := by
  dsimp only [Gen.V, Gen.hostOps0]; after_results; rfl

theorem V_mask (c : Dev nD) : (V m c main_v2 : S2048x2560.Idx → EReal) = m ((c : Thread nD τ).loc main_arg2) := by
  dsimp only [Gen.V, Gen.hostOps0]; after_results; rfl

theorem V_wg (c : Dev nD) : (V m c main_v3 : S2048x2560.Idx → EReal) = m ((c : Thread nD τ).loc main_arg3) := by
  dsimp only [Gen.V, Gen.hostOps0]; after_results; rfl
theorem V_wh (c : Dev nD) : (V m c main_v4 : S2048x2560.Idx → EReal) = m ((c : Thread nD τ).loc main_arg5) := by
  dsimp only [Gen.V, Gen.hostOps0]; after_results; rfl
theorem V_wfg (c : Dev nD) : (V m c main_v5 : S2048x2560.Idx → EReal) = m ((c : Thread nD τ).loc main_arg7) := by
  dsimp only [Gen.V, Gen.hostOps0]; after_results; rfl
theorem V_wfh (c : Dev nD) : (V m c main_v6 : S2048x2560.Idx → EReal) = m ((c : Thread nD τ).loc main_arg9) := by
  dsimp only [Gen.V, Gen.hostOps0]; after_results; rfl
theorem V_wp (c : Dev nD) : (V m c main_v7 : S2048x2560.Idx → EReal) = m ((c : Thread nD τ).loc main_arg11) := by
  dsimp only [Gen.V, Gen.hostOps0]; after_results; rfl

/-- A bias reshaped to a row [1, 2048] reads, at lane `o` of its one row, entry `o` of the bias. -/
theorem row_at (x : S2048.Idx → EReal) (o : Fin 2048) :
    shapeCast S1x2048 x shapeCasts_S2048_S1x2048 (ix2 (0 : Fin 1) o) = x (ix1 o) :=
  shapeCast_apply x shapeCasts_S2048_S1x2048 (ix2 (0 : Fin 1) o) (ix1 o)
    (by rewrite [Shape.rowMajor_val_two, Shape.rowMajor_val_one]; show o.val = 0 * 2048 + o.val; omega)

theorem V_bg (c : Dev nD) (o : Fin 2048) : (V m c main_v8 : S1x2048.Idx → EReal) (ix2 (0 : Fin 1) o) = m ((c : Thread nD τ).loc main_arg4) (ix1 o) := by
  have e : (V m c main_v8 : S1x2048.Idx → EReal) = shapeCast S1x2048 (m ((c : Thread nD τ).loc main_arg4)) shapeCasts_S2048_S1x2048 := by
    dsimp only [Gen.V, Gen.hostOps0]; after_results; rfl
  rw [e]; exact row_at _ o

theorem V_bh (c : Dev nD) (o : Fin 2048) : (V m c main_v9 : S1x2048.Idx → EReal) (ix2 (0 : Fin 1) o) = m ((c : Thread nD τ).loc main_arg6) (ix1 o) := by
  have e : (V m c main_v9 : S1x2048.Idx → EReal) = shapeCast S1x2048 (m ((c : Thread nD τ).loc main_arg6)) shapeCasts_S2048_S1x2048 := by
    dsimp only [Gen.V, Gen.hostOps0]; after_results; rfl
  rw [e]; exact row_at _ o
theorem V_bfg (c : Dev nD) (o : Fin 2048) : (V m c main_v10 : S1x2048.Idx → EReal) (ix2 (0 : Fin 1) o) = m ((c : Thread nD τ).loc main_arg8) (ix1 o) := by
  have e : (V m c main_v10 : S1x2048.Idx → EReal) = shapeCast S1x2048 (m ((c : Thread nD τ).loc main_arg8)) shapeCasts_S2048_S1x2048 := by
    dsimp only [Gen.V, Gen.hostOps0]; after_results; rfl
  rw [e]; exact row_at _ o
theorem V_bfh (c : Dev nD) (o : Fin 2048) : (V m c main_v11 : S1x2048.Idx → EReal) (ix2 (0 : Fin 1) o) = m ((c : Thread nD τ).loc main_arg10) (ix1 o) := by
  have e : (V m c main_v11 : S1x2048.Idx → EReal) = shapeCast S1x2048 (m ((c : Thread nD τ).loc main_arg10)) shapeCasts_S2048_S1x2048 := by
    dsimp only [Gen.V, Gen.hostOps0]; after_results; rfl
  rw [e]; exact row_at _ o
theorem V_bp (c : Dev nD) (o : Fin 2048) : (V m c main_v12 : S1x2048.Idx → EReal) (ix2 (0 : Fin 1) o) = m ((c : Thread nD τ).loc main_arg12) (ix1 o) := by
  have e : (V m c main_v12 : S1x2048.Idx → EReal) = shapeCast S1x2048 (m ((c : Thread nD τ).loc main_arg12)) shapeCasts_S2048_S1x2048 := by
    dsimp only [Gen.V, Gen.hostOps0]; after_results; rfl
  rw [e]; exact row_at _ o

/-! ## Which block each window stages at a grid point -/

/-- Hidden unit `128·t + q`: lane `q` of grid point `t`'s block of columns. -/
def unit (t : Fin cfg0.N) (q : Fin 128) : Fin 2048 :=
  ⟨t.val * 128 + q.val, by have h : t.val < 16 := lt_of_lt_of_eq t.isLt N_0; have := q.isLt; omega⟩

/-- The input is staged whole at every point. -/
theorem idx_w0 : ∀ t : Fin cfg0.N, win0_0.index t (0 : Fin 2) = 0 ∧ win0_0.index t (1 : Fin 2) = 0 :=
  (by decide +kernel : ∀ t : Fin grid0.N, _)
/-- Point `t` stages block row `t` of the mask and of each weight, -/
theorem idx_w1 : ∀ t : Fin cfg0.N, win0_1.index t (0 : Fin 2) = t.val ∧ win0_1.index t (1 : Fin 2) = 0 :=
  (by decide +kernel : ∀ t : Fin grid0.N, _)
theorem idx_w2 : ∀ t : Fin cfg0.N, win0_2.index t (0 : Fin 2) = t.val ∧ win0_2.index t (1 : Fin 2) = 0 :=
  (by decide +kernel : ∀ t : Fin grid0.N, _)
theorem idx_w4 : ∀ t : Fin cfg0.N, win0_4.index t (0 : Fin 2) = t.val ∧ win0_4.index t (1 : Fin 2) = 0 :=
  (by decide +kernel : ∀ t : Fin grid0.N, _)
theorem idx_w6 : ∀ t : Fin cfg0.N, win0_6.index t (0 : Fin 2) = t.val ∧ win0_6.index t (1 : Fin 2) = 0 :=
  (by decide +kernel : ∀ t : Fin grid0.N, _)
theorem idx_w8 : ∀ t : Fin cfg0.N, win0_8.index t (0 : Fin 2) = t.val ∧ win0_8.index t (1 : Fin 2) = 0 :=
  (by decide +kernel : ∀ t : Fin grid0.N, _)
theorem idx_w10 : ∀ t : Fin cfg0.N, win0_10.index t (0 : Fin 2) = t.val ∧ win0_10.index t (1 : Fin 2) = 0 :=
  (by decide +kernel : ∀ t : Fin grid0.N, _)
/-- block column `t` of each bias row, -/
theorem idx_w3 : ∀ t : Fin cfg0.N, win0_3.index t (0 : Fin 2) = 0 ∧ win0_3.index t (1 : Fin 2) = t.val :=
  (by decide +kernel : ∀ t : Fin grid0.N, _)
theorem idx_w5 : ∀ t : Fin cfg0.N, win0_5.index t (0 : Fin 2) = 0 ∧ win0_5.index t (1 : Fin 2) = t.val :=
  (by decide +kernel : ∀ t : Fin grid0.N, _)
theorem idx_w7 : ∀ t : Fin cfg0.N, win0_7.index t (0 : Fin 2) = 0 ∧ win0_7.index t (1 : Fin 2) = t.val :=
  (by decide +kernel : ∀ t : Fin grid0.N, _)
theorem idx_w9 : ∀ t : Fin cfg0.N, win0_9.index t (0 : Fin 2) = 0 ∧ win0_9.index t (1 : Fin 2) = t.val :=
  (by decide +kernel : ∀ t : Fin grid0.N, _)
theorem idx_w11 : ∀ t : Fin cfg0.N, win0_11.index t (0 : Fin 2) = 0 ∧ win0_11.index t (1 : Fin 2) = t.val :=
  (by decide +kernel : ∀ t : Fin grid0.N, _)
/-- and writes block column `t` of both results. -/
theorem idx_w12 : ∀ t : Fin cfg0.N, win0_12.index t (0 : Fin 2) = 0 ∧ win0_12.index t (1 : Fin 2) = t.val :=
  (by decide +kernel : ∀ t : Fin grid0.N, _)
theorem idx_w13 : ∀ t : Fin cfg0.N, win0_13.index t (0 : Fin 2) = 0 ∧ win0_13.index t (1 : Fin 2) = t.val :=
  (by decide +kernel : ∀ t : Fin grid0.N, _)

/-! ## The staged blocks, read at an index -/

/-- The input block is the input. -/
theorem blk_xc (c : Dev nD) (t : Fin cfg0.N) (b : Fin 2048) (k : Fin 2560) :
    (iblk m c 0 t : Vec Ideal S2048x2560 .bf16) (ix2 b k) = xcOf m c (ix2 b k) := by
  obtain ⟨e0, e1⟩ := idx_w0 t
  show (V m c main_v1 : S2048x2560.Idx → EReal) (((cfg0.win 0).blk t).view.emb (ix2 b k : S2048x2560.Idx)) = _
  rw [V_xc]
  congr 1
  funext a; apply Fin.ext
  match a with
  | ⟨0, _⟩ => show win0_0.index t (0 : Fin 2) * 2048 + 1 * b.val = b.val; omega
  | ⟨1, _⟩ => show win0_0.index t (1 : Fin 2) * 2560 + 1 * k.val = k.val; omega

/-- Row `q` of the mask block at point `t` is row `128·t + q` of the mask. -/
theorem blk_mask (c : Dev nD) (t : Fin cfg0.N) (q : Fin 128) (k : Fin 2560) :
    (iblk m c 1 t : Vec Ideal S128x2560 .bf16) (ix2 q k) = m ((c : Thread nD τ).loc main_arg2) (ix2 (unit t q) k) := by
  obtain ⟨e0, e1⟩ := idx_w1 t
  show (V m c main_v2 : S2048x2560.Idx → EReal) (((cfg0.win 1).blk t).view.emb (ix2 q k : S128x2560.Idx)) = _
  rw [V_mask]
  congr 1
  funext a; apply Fin.ext
  match a with
  | ⟨0, _⟩ => show win0_1.index t (0 : Fin 2) * 128 + 1 * q.val = t.val * 128 + q.val; omega
  | ⟨1, _⟩ => show win0_1.index t (1 : Fin 2) * 2560 + 1 * k.val = k.val; omega

/-- Lane `q` of the bias block at point `t` is entry `128·t + q` of the bias. -/
theorem blk_bg (c : Dev nD) (t : Fin cfg0.N) (q : Fin 128) :
    (iblk m c 3 t : Vec Ideal S1x128 .f32) (ix2 (0 : Fin 1) q) = m ((c : Thread nD τ).loc main_arg4) (ix1 (unit t q)) := by
  obtain ⟨e0, e1⟩ := idx_w3 t
  show (V m c main_v8 : S1x2048.Idx → EReal) (((cfg0.win 3).blk t).view.emb (ix2 (0 : Fin 1) q : S1x128.Idx)) = _
  refine Eq.trans ?_ (V_bg m c (unit t q))
  congr 1
  funext a; apply Fin.ext
  match a with
  | ⟨0, _⟩ => show win0_3.index t (0 : Fin 2) * 1 + 1 * 0 = 0; omega
  | ⟨1, _⟩ => show win0_3.index t (1 : Fin 2) * 128 + 1 * q.val = t.val * 128 + q.val; omega

/-- Row `q` of each weight block at point `t` is row `128·t + q` of that weight. -/
theorem blk_wg (c : Dev nD) (t : Fin cfg0.N) (q : Fin 128) (k : Fin 2560) :
    (iblk m c 2 t : Vec Ideal S128x2560 .bf16) (ix2 q k) = m ((c : Thread nD τ).loc main_arg3) (ix2 (unit t q) k) := by
  obtain ⟨e0, e1⟩ := idx_w2 t
  show (V m c main_v3 : S2048x2560.Idx → EReal) (((cfg0.win 2).blk t).view.emb (ix2 q k : S128x2560.Idx)) = _
  rw [V_wg]
  congr 1
  funext a; apply Fin.ext
  match a with
  | ⟨0, _⟩ => show win0_2.index t (0 : Fin 2) * 128 + 1 * q.val = t.val * 128 + q.val; omega
  | ⟨1, _⟩ => show win0_2.index t (1 : Fin 2) * 2560 + 1 * k.val = k.val; omega

theorem blk_wh (c : Dev nD) (t : Fin cfg0.N) (q : Fin 128) (k : Fin 2560) :
    (iblk m c 4 t : Vec Ideal S128x2560 .bf16) (ix2 q k) = m ((c : Thread nD τ).loc main_arg5) (ix2 (unit t q) k) := by
  obtain ⟨e0, e1⟩ := idx_w4 t
  show (V m c main_v4 : S2048x2560.Idx → EReal) (((cfg0.win 4).blk t).view.emb (ix2 q k : S128x2560.Idx)) = _
  rw [V_wh]
  congr 1
  funext a; apply Fin.ext
  match a with
  | ⟨0, _⟩ => show win0_4.index t (0 : Fin 2) * 128 + 1 * q.val = t.val * 128 + q.val; omega
  | ⟨1, _⟩ => show win0_4.index t (1 : Fin 2) * 2560 + 1 * k.val = k.val; omega

theorem blk_wfg (c : Dev nD) (t : Fin cfg0.N) (q : Fin 128) (k : Fin 2560) :
    (iblk m c 6 t : Vec Ideal S128x2560 .bf16) (ix2 q k) = m ((c : Thread nD τ).loc main_arg7) (ix2 (unit t q) k) := by
  obtain ⟨e0, e1⟩ := idx_w6 t
  show (V m c main_v5 : S2048x2560.Idx → EReal) (((cfg0.win 6).blk t).view.emb (ix2 q k : S128x2560.Idx)) = _
  rw [V_wfg]
  congr 1
  funext a; apply Fin.ext
  match a with
  | ⟨0, _⟩ => show win0_6.index t (0 : Fin 2) * 128 + 1 * q.val = t.val * 128 + q.val; omega
  | ⟨1, _⟩ => show win0_6.index t (1 : Fin 2) * 2560 + 1 * k.val = k.val; omega

theorem blk_wfh (c : Dev nD) (t : Fin cfg0.N) (q : Fin 128) (k : Fin 2560) :
    (iblk m c 8 t : Vec Ideal S128x2560 .bf16) (ix2 q k) = m ((c : Thread nD τ).loc main_arg9) (ix2 (unit t q) k) := by
  obtain ⟨e0, e1⟩ := idx_w8 t
  show (V m c main_v6 : S2048x2560.Idx → EReal) (((cfg0.win 8).blk t).view.emb (ix2 q k : S128x2560.Idx)) = _
  rw [V_wfh]
  congr 1
  funext a; apply Fin.ext
  match a with
  | ⟨0, _⟩ => show win0_8.index t (0 : Fin 2) * 128 + 1 * q.val = t.val * 128 + q.val; omega
  | ⟨1, _⟩ => show win0_8.index t (1 : Fin 2) * 2560 + 1 * k.val = k.val; omega

theorem blk_wp (c : Dev nD) (t : Fin cfg0.N) (q : Fin 128) (k : Fin 2560) :
    (iblk m c 10 t : Vec Ideal S128x2560 .bf16) (ix2 q k) = m ((c : Thread nD τ).loc main_arg11) (ix2 (unit t q) k) := by
  obtain ⟨e0, e1⟩ := idx_w10 t
  show (V m c main_v7 : S2048x2560.Idx → EReal) (((cfg0.win 10).blk t).view.emb (ix2 q k : S128x2560.Idx)) = _
  rw [V_wp]
  congr 1
  funext a; apply Fin.ext
  match a with
  | ⟨0, _⟩ => show win0_10.index t (0 : Fin 2) * 128 + 1 * q.val = t.val * 128 + q.val; omega
  | ⟨1, _⟩ => show win0_10.index t (1 : Fin 2) * 2560 + 1 * k.val = k.val; omega

theorem blk_bh (c : Dev nD) (t : Fin cfg0.N) (q : Fin 128) :
    (iblk m c 5 t : Vec Ideal S1x128 .f32) (ix2 (0 : Fin 1) q) = m ((c : Thread nD τ).loc main_arg6) (ix1 (unit t q)) := by
  obtain ⟨e0, e1⟩ := idx_w5 t
  show (V m c main_v9 : S1x2048.Idx → EReal) (((cfg0.win 5).blk t).view.emb (ix2 (0 : Fin 1) q : S1x128.Idx)) = _
  refine Eq.trans ?_ (V_bh m c (unit t q))
  congr 1
  funext a; apply Fin.ext
  match a with
  | ⟨0, _⟩ => show win0_5.index t (0 : Fin 2) * 1 + 1 * 0 = 0; omega
  | ⟨1, _⟩ => show win0_5.index t (1 : Fin 2) * 128 + 1 * q.val = t.val * 128 + q.val; omega

theorem blk_bfg (c : Dev nD) (t : Fin cfg0.N) (q : Fin 128) :
    (iblk m c 7 t : Vec Ideal S1x128 .f32) (ix2 (0 : Fin 1) q) = m ((c : Thread nD τ).loc main_arg8) (ix1 (unit t q)) := by
  obtain ⟨e0, e1⟩ := idx_w7 t
  show (V m c main_v10 : S1x2048.Idx → EReal) (((cfg0.win 7).blk t).view.emb (ix2 (0 : Fin 1) q : S1x128.Idx)) = _
  refine Eq.trans ?_ (V_bfg m c (unit t q))
  congr 1
  funext a; apply Fin.ext
  match a with
  | ⟨0, _⟩ => show win0_7.index t (0 : Fin 2) * 1 + 1 * 0 = 0; omega
  | ⟨1, _⟩ => show win0_7.index t (1 : Fin 2) * 128 + 1 * q.val = t.val * 128 + q.val; omega

theorem blk_bfh (c : Dev nD) (t : Fin cfg0.N) (q : Fin 128) :
    (iblk m c 9 t : Vec Ideal S1x128 .f32) (ix2 (0 : Fin 1) q) = m ((c : Thread nD τ).loc main_arg10) (ix1 (unit t q)) := by
  obtain ⟨e0, e1⟩ := idx_w9 t
  show (V m c main_v11 : S1x2048.Idx → EReal) (((cfg0.win 9).blk t).view.emb (ix2 (0 : Fin 1) q : S1x128.Idx)) = _
  refine Eq.trans ?_ (V_bfh m c (unit t q))
  congr 1
  funext a; apply Fin.ext
  match a with
  | ⟨0, _⟩ => show win0_9.index t (0 : Fin 2) * 1 + 1 * 0 = 0; omega
  | ⟨1, _⟩ => show win0_9.index t (1 : Fin 2) * 128 + 1 * q.val = t.val * 128 + q.val; omega

theorem blk_bp (c : Dev nD) (t : Fin cfg0.N) (q : Fin 128) :
    (iblk m c 11 t : Vec Ideal S1x128 .f32) (ix2 (0 : Fin 1) q) = m ((c : Thread nD τ).loc main_arg12) (ix1 (unit t q)) := by
  obtain ⟨e0, e1⟩ := idx_w11 t
  show (V m c main_v12 : S1x2048.Idx → EReal) (((cfg0.win 11).blk t).view.emb (ix2 (0 : Fin 1) q : S1x128.Idx)) = _
  refine Eq.trans ?_ (V_bp m c (unit t q))
  congr 1
  funext a; apply Fin.ext
  match a with
  | ⟨0, _⟩ => show win0_11.index t (0 : Fin 2) * 1 + 1 * 0 = 0; omega
  | ⟨1, _⟩ => show win0_11.index t (1 : Fin 2) * 128 + 1 * q.val = t.val * 128 + q.val; omega

/-! ## A layer of the block is the layer of the arrays -/

/-- The block's layer at row `b`, lane `q` of point `t` is the arrays' layer at batch row `b` and hidden
    unit `128·t + q`, given the three block reads. -/
theorem blkLin_eq (xb : Vec Ideal S2048x2560 .bf16) (wb mb : Vec Ideal S128x2560 .bf16) (bb : Vec Ideal S1x128 .f32)
    (xc W M : S2048x2560.Idx → EReal) (bias : S2048.Idx → EReal) (b o : Fin 2048) (q : Fin 128)
    (hx : ∀ k : Fin 2560, xb (ix2 b k) = xc (ix2 b k)) (hw : ∀ k : Fin 2560, wb (ix2 q k) = W (ix2 o k))
    (hm : ∀ k : Fin 2560, mb (ix2 q k) = M (ix2 o k)) (hb : bb (ix2 (0 : Fin 1) q) = bias (ix1 o)) :
    blkLin xb wb mb bb b q = lin xc W M bias b o := by
  unfold blkLin lin
  rw [hb]
  exact congrArg (· + bias (ix1 o)) (Finset.sum_congr rfl fun k _ => by rw [hx k, hw k, hm k])

/-! ## What each point writes back -/

/-- The new hidden state as the function of core `c`'s arguments. -/
abbrev nhOf (c : Dev nD) : S2048x2048.Idx → EReal :=
  newHidden (xcOf m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The prediction as the function of core `c`'s arguments. -/
abbrev yOf (c : Dev nD) : S2048x2048.Idx → EReal :=
  prediction (xcOf m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem hz : (![0, 0] : Fin 2 → Nat) = fun _ => 0 := funext fun a => by fin_cases a <;> rfl

/-- The four layers of the gate at row `b`, lane `q` of point `t`, blended, are the new hidden state at
    batch row `b` and hidden unit `128·t + q`. -/
theorem blend_pt (c : Dev nD) (t : Fin cfg0.N) (b : Fin 2048) (q : Fin 128) :
    blend (blkLin (iblk m c 0 t) (iblk m c 2 t) (iblk m c 1 t) (iblk m c 3 t) b q) (blkLin (iblk m c 0 t) (iblk m c 4 t) (iblk m c 1 t) (iblk m c 5 t) b q)
        (blkLin (iblk m c 0 t) (iblk m c 6 t) (iblk m c 1 t) (iblk m c 7 t) b q) (blkLin (iblk m c 0 t) (iblk m c 8 t) (iblk m c 1 t) (iblk m c 9 t) b q)
      = nhOf m c (ix2 b (unit t q)) := by
  have h1 := blkLin_eq (iblk m c 0 t) (iblk m c 2 t) (iblk m c 1 t) (iblk m c 3 t) (xcOf m c) (m ((c : Thread nD τ).loc main_arg3)) (m ((c : Thread nD τ).loc main_arg2)) (m ((c : Thread nD τ).loc main_arg4)) b (unit t q) q
    (fun k => blk_xc m c t b k) (fun k => blk_wg m c t q k) (fun k => blk_mask m c t q k) (blk_bg m c t q)
  have h2 := blkLin_eq (iblk m c 0 t) (iblk m c 4 t) (iblk m c 1 t) (iblk m c 5 t) (xcOf m c) (m ((c : Thread nD τ).loc main_arg5)) (m ((c : Thread nD τ).loc main_arg2)) (m ((c : Thread nD τ).loc main_arg6)) b (unit t q) q
    (fun k => blk_xc m c t b k) (fun k => blk_wh m c t q k) (fun k => blk_mask m c t q k) (blk_bh m c t q)
  have h3 := blkLin_eq (iblk m c 0 t) (iblk m c 6 t) (iblk m c 1 t) (iblk m c 7 t) (xcOf m c) (m ((c : Thread nD τ).loc main_arg7)) (m ((c : Thread nD τ).loc main_arg2)) (m ((c : Thread nD τ).loc main_arg8)) b (unit t q) q
    (fun k => blk_xc m c t b k) (fun k => blk_wfg m c t q k) (fun k => blk_mask m c t q k) (blk_bfg m c t q)
  have h4 := blkLin_eq (iblk m c 0 t) (iblk m c 8 t) (iblk m c 1 t) (iblk m c 9 t) (xcOf m c) (m ((c : Thread nD τ).loc main_arg9)) (m ((c : Thread nD τ).loc main_arg2)) (m ((c : Thread nD τ).loc main_arg10)) b (unit t q) q
    (fun k => blk_xc m c t b k) (fun k => blk_wfh m c t q k) (fun k => blk_mask m c t q k) (blk_bfh m c t q)
  rw [h1, h2, h3, h4]
  rfl

/-- Where lane `q` of row `b` of point `t`'s result block lies in the result arrays. -/
theorem emb_y (t : Fin cfg0.N) (b : Fin 2048) (q : Fin 128) :
    ((cfg0.win 12).blk t).view.emb (ix2 b q : S2048x128.Idx) = (ix2 b (unit t q) : S2048x2048.Idx) := by
  obtain ⟨e0, e1⟩ := idx_w12 t
  funext a; apply Fin.ext
  match a with
  | ⟨0, _⟩ => show win0_12.index t (0 : Fin 2) * 2048 + 1 * b.val = b.val; omega
  | ⟨1, _⟩ => show win0_12.index t (1 : Fin 2) * 128 + 1 * q.val = t.val * 128 + q.val; omega

theorem emb_nh (t : Fin cfg0.N) (b : Fin 2048) (q : Fin 128) :
    ((cfg0.win 13).blk t).view.emb (ix2 b q : S2048x128.Idx) = (ix2 b (unit t q) : S2048x2048.Idx) := by
  obtain ⟨e0, e1⟩ := idx_w13 t
  funext a; apply Fin.ext
  match a with
  | ⟨0, _⟩ => show win0_13.index t (0 : Fin 2) * 2048 + 1 * b.val = b.val; omega
  | ⟨1, _⟩ => show win0_13.index t (1 : Fin 2) * 128 + 1 * q.val = t.val * 128 + q.val; omega

/-- The new-hidden store of point `t`, at any index of its block, is the new hidden state there. -/
theorem nh_point (c : Dev nD) (t : Fin cfg0.N) (y : S2048x128.Idx) :
    k0_pay1 (k0_pay5 (iblk m c 0 t) (iblk m c 1 t) (iblk m c 2 t) (iblk m c 3 t)) (k0_pay6 (iblk m c 0 t) (iblk m c 1 t) (iblk m c 4 t) (iblk m c 5 t)) (k0_pay7 (iblk m c 0 t) (iblk m c 1 t) (iblk m c 6 t) (iblk m c 7 t)) (k0_pay8 (iblk m c 0 t) (iblk m c 1 t) (iblk m c 8 t)) (k0_pay9 (iblk m c 9 t)) y
      = nhOf m c (((cfg0.win 13).blk t).view.emb y) := by
  obtain ⟨b, q, rfl⟩ : ∃ (b : Fin 2048) (q : Fin 128), y = ix2 b q := ⟨y 0, y 1, eq_ix2 y⟩
  rw [emb_nh]
  exact (store_nh_at (iblk m c 0 t) (iblk m c 1 t) (iblk m c 2 t) (iblk m c 3 t) (iblk m c 4 t) (iblk m c 5 t) (iblk m c 6 t) (iblk m c 7 t) (iblk m c 8 t) (iblk m c 9 t) b q).trans (blend_pt m c t b q)

/-- The prediction store of point `t`, at any index of its block, is the prediction there. -/
theorem y_point (c : Dev nD) (t : Fin cfg0.N) (y : S2048x128.Idx) :
    k0_pay2 (k0_pay3 (iblk m c 0 t)) (k0_pay4 (iblk m c 1 t)) (k0_pay5 (iblk m c 0 t) (iblk m c 1 t) (iblk m c 2 t) (iblk m c 3 t)) (k0_pay6 (iblk m c 0 t) (iblk m c 1 t) (iblk m c 4 t) (iblk m c 5 t)) (k0_pay7 (iblk m c 0 t) (iblk m c 1 t) (iblk m c 6 t) (iblk m c 7 t)) (k0_pay8 (iblk m c 0 t) (iblk m c 1 t) (iblk m c 8 t)) (k0_pay9 (iblk m c 9 t)) (iblk m c 10 t) (iblk m c 11 t) y
      = yOf m c (((cfg0.win 12).blk t).view.emb y) := by
  obtain ⟨b, q, rfl⟩ : ∃ (b : Fin 2048) (q : Fin 128), y = ix2 b q := ⟨y 0, y 1, eq_ix2 y⟩
  rw [emb_y]
  refine (store_y_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) b q).trans ?_
  have h5 := blkLin_eq (iblk m c 0 t) (iblk m c 10 t) (iblk m c 1 t) (iblk m c 11 t) (xcOf m c) (m ((c : Thread nD τ).loc main_arg11)) (m ((c : Thread nD τ).loc main_arg2)) (m ((c : Thread nD τ).loc main_arg12)) b (unit t q) q
    (fun k => blk_xc m c t b k) (fun k => blk_wp m c t q k) (fun k => blk_mask m c t q k) (blk_bp m c t q)
  rw [h5, blend_pt]
  rfl

/-- WHAT POINT `t` WRITES BACK to the new-hidden array is block `t` of the new hidden state. -/
theorem flushed_nh (c : Dev nD) (t : Fin cfg0.N) :
    (dats m 0 c).flushed 13 t = ((cfg0.win 13).blk t).view.read (Elt Ideal) (nhOf m c) := by
  rw [Value.flushed13]
  unfold out0_13
  rw [View.canon_unit_zero hz]
  simp only [View.ld_unit_zero (S := S2048x2560) hz, View.ld_unit_zero (S := S128x2560) hz, View.ld_unit_zero (S := S1x128) hz]
  funext y
  exact nh_point m c t y

/-- WHAT POINT `t` WRITES BACK to the prediction array is block `t` of the prediction. -/
theorem flushed_y (c : Dev nD) (t : Fin cfg0.N) :
    (dats m 0 c).flushed 12 t = ((cfg0.win 12).blk t).view.read (Elt Ideal) (yOf m c) := by
  rw [Value.flushed12]
  unfold out0_12
  rw [View.canon_unit_zero hz]
  simp only [View.ld_unit_zero (S := S2048x2560) hz, View.ld_unit_zero (S := S128x2560) hz, View.ld_unit_zero (S := S1x128) hz]
  funext y
  exact y_point m c t y

/-! ## The blocks tile the result arrays -/

/-- An index of the prediction array is in point `t`'s block iff each coordinate is in the block's range. -/
theorem mem_blk_y (t : Fin cfg0.N) (i : S2048x2048.Idx) :
    i ∈ ((cfg0.win 12).blk t).view.set ↔ ∀ a : Fin 2, win0_12.index t a * S2048x128.size a ≤ (i a).val ∧ (i a).val < win0_12.index t a * S2048x128.size a + S2048x128.size a := by
  show i ∈ ((View.whole main_v13_0).slice (win0_12.rect t)).set ↔ _
  rw [View.set_slice_whole, Rect.mem_set_unit]
  exact Iff.rfl

theorem mem_blk_nh (t : Fin cfg0.N) (i : S2048x2048.Idx) :
    i ∈ ((cfg0.win 13).blk t).view.set ↔ ∀ a : Fin 2, win0_13.index t a * S2048x128.size a ≤ (i a).val ∧ (i a).val < win0_13.index t a * S2048x128.size a + S2048x128.size a := by
  show i ∈ ((View.whole main_v13_1).slice (win0_13.rect t)).set ↔ _
  rw [View.set_slice_whole, Rect.mem_set_unit]
  exact Iff.rfl

/-- Column `o` lies in the block of point `o / 128`: the sixteen blocks of 128 columns tile the array. -/
theorem cover_y (i : S2048x2048.Idx) :
    ∃ t : Fin cfg0.N, (cfg0.win 12).flush t = true ∧ i ∈ ((cfg0.win 12).blk t).view.set := by
  have hi0 : (i 0).val < 2048 := (i 0).isLt
  have hi1 : (i 1).val < 2048 := (i 1).isLt
  have ht : (i 1).val / 128 < cfg0.N := lt_of_lt_of_eq (by omega : (i 1).val / 128 < 16) N_0.symm
  refine ⟨⟨(i 1).val / 128, ht⟩, flush0_12 _, ?_⟩
  rw [mem_blk_y]
  obtain ⟨e0, e1⟩ := idx_w12 ⟨(i 1).val / 128, ht⟩
  intro a
  match a with
  | ⟨0, _⟩ => show win0_12.index ⟨(i 1).val / 128, ht⟩ (0 : Fin 2) * 2048 ≤ (i 0).val ∧ (i 0).val < win0_12.index ⟨(i 1).val / 128, ht⟩ (0 : Fin 2) * 2048 + 2048; rw [e0]; omega
  | ⟨1, _⟩ => show win0_12.index ⟨(i 1).val / 128, ht⟩ (1 : Fin 2) * 128 ≤ (i 1).val ∧ (i 1).val < win0_12.index ⟨(i 1).val / 128, ht⟩ (1 : Fin 2) * 128 + 128; rw [e1]; show (i 1).val / 128 * 128 ≤ (i 1).val ∧ (i 1).val < (i 1).val / 128 * 128 + 128; omega

theorem cover_nh (i : S2048x2048.Idx) :
    ∃ t : Fin cfg0.N, (cfg0.win 13).flush t = true ∧ i ∈ ((cfg0.win 13).blk t).view.set := by
  have hi0 : (i 0).val < 2048 := (i 0).isLt
  have hi1 : (i 1).val < 2048 := (i 1).isLt
  have ht : (i 1).val / 128 < cfg0.N := lt_of_lt_of_eq (by omega : (i 1).val / 128 < 16) N_0.symm
  refine ⟨⟨(i 1).val / 128, ht⟩, flush0_13 _, ?_⟩
  rw [mem_blk_nh]
  obtain ⟨e0, e1⟩ := idx_w13 ⟨(i 1).val / 128, ht⟩
  intro a
  match a with
  | ⟨0, _⟩ => show win0_13.index ⟨(i 1).val / 128, ht⟩ (0 : Fin 2) * 2048 ≤ (i 0).val ∧ (i 0).val < win0_13.index ⟨(i 1).val / 128, ht⟩ (0 : Fin 2) * 2048 + 2048; rw [e0]; omega
  | ⟨1, _⟩ => show win0_13.index ⟨(i 1).val / 128, ht⟩ (1 : Fin 2) * 128 ≤ (i 1).val ∧ (i 1).val < win0_13.index ⟨(i 1).val / 128, ht⟩ (1 : Fin 2) * 128 + 128; rw [e1]; show (i 1).val / 128 * 128 ≤ (i 1).val ∧ (i 1).val < (i 1).val / 128 * 128 + 128; omega

/-- So the prediction array ends holding the prediction, -/
theorem final_y (c : Dev nD) : (dats m 0 c).arrAt 12 cfg0.N = yOf m c :=
  (dats m 0 c).arrAt_eq_of_cover 12 (yOf m c) (fun t _ => flushed_y m c t) cover_y

/-- and the new-hidden array the new hidden state. -/
theorem final_nh (c : Dev nD) : (dats m 0 c).arrAt 13 cfg0.N = nhOf m c :=
  (dats m 0 c).arrAt_eq_of_cover 13 (nhOf m c) (fun t _ => flushed_nh m c t) cover_nh

/-! ## The run -/

/-- Every weakly fair execution of the kernel program ends with the two result arrays at the
    liquid-cell functions of the arguments, and the arguments unchanged. -/
theorem run : θ_run defs (onTc (τ := τ) (main (F := Ideal))) ⟨m, fun _ => 0, ρ⟩ fun r => ∀ c : Dev nD,
      r.2.mem ((c : Thread nD τ).loc main_v13_0) = yOf m c
      ∧ r.2.mem ((c : Thread nD τ).loc main_v13_1) = nhOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final_y m c), (h c).2.1.trans (final_nh m c), (h c).2.2⟩)
    (Value.run_blocks m ρ)

end Cert.KernelIdeal.Arrays

end
-- ==== Proof.RefCell.lean ====
/-
  The reference's two results as the liquid-cell functions of its arguments.

  The reference stacks the five weights into one [5, 2048, 2560] array, multiplies it by the mask
  broadcast over the stack, contracts it with the concatenated input in ONE `dot_general`
  (Σ_k (W_n[o,k] · mask[o,k]) · xc[b,k], the masked weight on the left), transposes the result to
  [5, batch, unit], adds the stacked biases, and slices the five layers apart again. Layer `n` of
  the stack at (b, o) is therefore the masked linear layer of weight `n`; the gate is spelled
  1 / (1 + e^(−z)), which is the logistic function.
-/
import proofs.«113862_j35175782154587_1_alg».proof.Proof.Gen.ReferenceIdeal.Read
import proofs.«113862_j35175782154587_1_alg».proof.Proof.CellSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.LiquidCell

variable (x0 : (⟨S2048x512, .f32⟩ : BufTy).Contents (Elt Ideal)) (x1 : (⟨S2048x2048, .f32⟩ : BufTy).Contents (Elt Ideal))
  (x2 x3 : (⟨S2048x2560, .f32⟩ : BufTy).Contents (Elt Ideal)) (x4 : (⟨S2048, .f32⟩ : BufTy).Contents (Elt Ideal))
  (x5 : (⟨S2048x2560, .f32⟩ : BufTy).Contents (Elt Ideal)) (x6 : (⟨S2048, .f32⟩ : BufTy).Contents (Elt Ideal))
  (x7 : (⟨S2048x2560, .f32⟩ : BufTy).Contents (Elt Ideal)) (x8 : (⟨S2048, .f32⟩ : BufTy).Contents (Elt Ideal))
  (x9 : (⟨S2048x2560, .f32⟩ : BufTy).Contents (Elt Ideal)) (x10 : (⟨S2048, .f32⟩ : BufTy).Contents (Elt Ideal))
  (x11 : (⟨S2048x2560, .f32⟩ : BufTy).Contents (Elt Ideal)) (x12 : (⟨S2048, .f32⟩ : BufTy).Contents (Elt Ideal))

/-! ## The stacks -/

/-- A stack of five [1, 2048, 2560] pieces along a new leading axis, read at layer `n`: piece `n`. -/
theorem stackW_at (y0 y1 y2 y3 y4 y : S1x2048x2560.Idx → EReal) (n : Nat) (hn : n < 5)
    (hy : ([⟨S1x2048x2560, y0⟩, ⟨S1x2048x2560, y1⟩, ⟨S1x2048x2560, y2⟩, ⟨S1x2048x2560, y3⟩, ⟨S1x2048x2560, y4⟩] : List ((s : Shape) × (s.Idx → EReal)))[n]'(by simpa using hn) = ⟨S1x2048x2560, y⟩)
    (o : Fin 2048) (k : Fin 2560) :
    concatenate S5x2048x2560 0 [⟨S1x2048x2560, y0⟩, ⟨S1x2048x2560, y1⟩, ⟨S1x2048x2560, y2⟩, ⟨S1x2048x2560, y3⟩, ⟨S1x2048x2560, y4⟩]
        concatenates_S1x2048x2560_S1x2048x2560_S1x2048x2560_S1x2048x2560_S1x2048x2560_S5x2048x2560_d0 (ix3 (⟨n, hn⟩ : Fin 5) o k)
      = y (ix3 (0 : Fin 1) o k) := by
  refine concatenate_apply_piece (0 : Fin S5x2048x2560.rank) [⟨S1x2048x2560, y0⟩, ⟨S1x2048x2560, y1⟩, ⟨S1x2048x2560, y2⟩, ⟨S1x2048x2560, y3⟩, ⟨S1x2048x2560, y4⟩] concatenates_S1x2048x2560_S1x2048x2560_S1x2048x2560_S1x2048x2560_S1x2048x2560_S5x2048x2560_d0 (ix3 (⟨n, hn⟩ : Fin 5) o k)
    n (by simpa using hn) S1x2048x2560 y hy rfl n ?_ (ix3 (0 : Fin 1) o k) ?_ ?_
  · interval_cases n <;> rfl
  · intro b hb
    match b with
    | ⟨0, _⟩ => exact absurd rfl hb
    | ⟨1, _⟩ => rfl
    | ⟨2, _⟩ => rfl
  · show n + 0 = n; omega

/-- Layer 0 of the stacked weights is the first weight; -/
theorem stackW0 (o : Fin 2048) (k : Fin 2560) :
    val_main_v6 (F := Ideal) x3 x5 x7 x9 x11 (ix3 (0 : Fin 5) o k) = x3 (ix2 o k) := by
  unfold val_main_v6
  refine (stackW_at _ _ _ _ _ (val_main_v1 (F := Ideal) x3) 0 (by decide) rfl o k).trans ?_
  rw [val_main_v1_apply]
  exact congrArg x3 (funext fun a => match a with | ⟨0, _⟩ => rfl | ⟨1, _⟩ => rfl)

/-- layer 1 the second, -/
theorem stackW1 (o : Fin 2048) (k : Fin 2560) :
    val_main_v6 (F := Ideal) x3 x5 x7 x9 x11 (ix3 (1 : Fin 5) o k) = x5 (ix2 o k) := by
  unfold val_main_v6
  refine (stackW_at _ _ _ _ _ (val_main_v2 (F := Ideal) x5) 1 (by decide) rfl o k).trans ?_
  rw [val_main_v2_apply]
  exact congrArg x5 (funext fun a => match a with | ⟨0, _⟩ => rfl | ⟨1, _⟩ => rfl)

/-- layer 2 the third, -/
theorem stackW2 (o : Fin 2048) (k : Fin 2560) :
    val_main_v6 (F := Ideal) x3 x5 x7 x9 x11 (ix3 (2 : Fin 5) o k) = x7 (ix2 o k) := by
  unfold val_main_v6
  refine (stackW_at _ _ _ _ _ (val_main_v3 (F := Ideal) x7) 2 (by decide) rfl o k).trans ?_
  rw [val_main_v3_apply]
  exact congrArg x7 (funext fun a => match a with | ⟨0, _⟩ => rfl | ⟨1, _⟩ => rfl)

/-- layer 3 the fourth, -/
theorem stackW3 (o : Fin 2048) (k : Fin 2560) :
    val_main_v6 (F := Ideal) x3 x5 x7 x9 x11 (ix3 (3 : Fin 5) o k) = x9 (ix2 o k) := by
  unfold val_main_v6
  refine (stackW_at _ _ _ _ _ (val_main_v4 (F := Ideal) x9) 3 (by decide) rfl o k).trans ?_
  rw [val_main_v4_apply]
  exact congrArg x9 (funext fun a => match a with | ⟨0, _⟩ => rfl | ⟨1, _⟩ => rfl)

/-- and layer 4 the fifth. -/
theorem stackW4 (o : Fin 2048) (k : Fin 2560) :
    val_main_v6 (F := Ideal) x3 x5 x7 x9 x11 (ix3 (4 : Fin 5) o k) = x11 (ix2 o k) := by
  unfold val_main_v6
  refine (stackW_at _ _ _ _ _ (val_main_v5 (F := Ideal) x11) 4 (by decide) rfl o k).trans ?_
  rw [val_main_v5_apply]
  exact congrArg x11 (funext fun a => match a with | ⟨0, _⟩ => rfl | ⟨1, _⟩ => rfl)

/-- A stack of five [1, 2048] rows along a new leading axis, read at row `n`: piece `n`. -/
theorem stackB_at (y0 y1 y2 y3 y4 y : S1x2048.Idx → EReal) (n : Nat) (hn : n < 5)
    (hy : ([⟨S1x2048, y0⟩, ⟨S1x2048, y1⟩, ⟨S1x2048, y2⟩, ⟨S1x2048, y3⟩, ⟨S1x2048, y4⟩] : List ((s : Shape) × (s.Idx → EReal)))[n]'(by simpa using hn) = ⟨S1x2048, y⟩)
    (o : Fin 2048) :
    concatenate S5x2048 0 [⟨S1x2048, y0⟩, ⟨S1x2048, y1⟩, ⟨S1x2048, y2⟩, ⟨S1x2048, y3⟩, ⟨S1x2048, y4⟩]
        concatenates_S1x2048_S1x2048_S1x2048_S1x2048_S1x2048_S5x2048_d0 (ix2 (⟨n, hn⟩ : Fin 5) o)
      = y (ix2 (0 : Fin 1) o) := by
  refine concatenate_apply_piece (0 : Fin S5x2048.rank) [⟨S1x2048, y0⟩, ⟨S1x2048, y1⟩, ⟨S1x2048, y2⟩, ⟨S1x2048, y3⟩, ⟨S1x2048, y4⟩] concatenates_S1x2048_S1x2048_S1x2048_S1x2048_S1x2048_S5x2048_d0 (ix2 (⟨n, hn⟩ : Fin 5) o)
    n (by simpa using hn) S1x2048 y hy rfl n ?_ (ix2 (0 : Fin 1) o) ?_ ?_
  · interval_cases n <;> rfl
  · intro b hb
    match b with
    | ⟨0, _⟩ => exact absurd rfl hb
    | ⟨1, _⟩ => rfl
  · show n + 0 = n; omega

/-- Row `n` of the stacked biases is bias `n`. -/
theorem stackB0 (o : Fin 2048) : val_main_v15 (F := Ideal) x4 x6 x8 x10 x12 (ix2 (0 : Fin 5) o) = x4 (ix1 o) := by
  unfold val_main_v15
  refine (stackB_at _ _ _ _ _ (val_main_v10 (F := Ideal) x4) 0 (by decide) rfl o).trans ?_
  rw [val_main_v10_apply]
  exact congrArg x4 (funext fun a => match a with | ⟨0, _⟩ => rfl)
theorem stackB1 (o : Fin 2048) : val_main_v15 (F := Ideal) x4 x6 x8 x10 x12 (ix2 (1 : Fin 5) o) = x6 (ix1 o) := by
  unfold val_main_v15
  refine (stackB_at _ _ _ _ _ (val_main_v11 (F := Ideal) x6) 1 (by decide) rfl o).trans ?_
  rw [val_main_v11_apply]
  exact congrArg x6 (funext fun a => match a with | ⟨0, _⟩ => rfl)
theorem stackB2 (o : Fin 2048) : val_main_v15 (F := Ideal) x4 x6 x8 x10 x12 (ix2 (2 : Fin 5) o) = x8 (ix1 o) := by
  unfold val_main_v15
  refine (stackB_at _ _ _ _ _ (val_main_v12 (F := Ideal) x8) 2 (by decide) rfl o).trans ?_
  rw [val_main_v12_apply]
  exact congrArg x8 (funext fun a => match a with | ⟨0, _⟩ => rfl)
theorem stackB3 (o : Fin 2048) : val_main_v15 (F := Ideal) x4 x6 x8 x10 x12 (ix2 (3 : Fin 5) o) = x10 (ix1 o) := by
  unfold val_main_v15
  refine (stackB_at _ _ _ _ _ (val_main_v13 (F := Ideal) x10) 3 (by decide) rfl o).trans ?_
  rw [val_main_v13_apply]
  exact congrArg x10 (funext fun a => match a with | ⟨0, _⟩ => rfl)
theorem stackB4 (o : Fin 2048) : val_main_v15 (F := Ideal) x4 x6 x8 x10 x12 (ix2 (4 : Fin 5) o) = x12 (ix1 o) := by
  unfold val_main_v15
  refine (stackB_at _ _ _ _ _ (val_main_v14 (F := Ideal) x12) 4 (by decide) rfl o).trans ?_
  rw [val_main_v14_apply]
  exact congrArg x12 (funext fun a => match a with | ⟨0, _⟩ => rfl)

/-! ## One layer of the stack -/

/-- Layer `n` of the stacked, transposed and biased product at (b, o) is the masked linear layer of the
    weight and bias the stacks hold at `n`: the contraction's left operand is the masked weight, so
    each term's product is taken in the other order. -/
theorem layer_at (n : Fin 5) (W : (⟨S2048x2560, .f32⟩ : BufTy).Contents (Elt Ideal)) (bias : (⟨S2048, .f32⟩ : BufTy).Contents (Elt Ideal))
    (hW : ∀ (o : Fin 2048) (k : Fin 2560), val_main_v6 (F := Ideal) x3 x5 x7 x9 x11 (ix3 n o k) = W (ix2 o k))
    (hb : ∀ o : Fin 2048, val_main_v15 (F := Ideal) x4 x6 x8 x10 x12 (ix2 n o) = bias (ix1 o))
    (b o : Fin 2048) :
    val_main_v20 (F := Ideal) x0 x1 x2 x3 x4 x5 x6 x7 x8 x9 x10 x11 x12 (ix3 n b o) = lin (val_main_v0 (F := Ideal) x0 x1) W x2 bias b o := by
  rw [val_main_v20_apply, val_main_v17_apply, val_main_v16_apply, val_main_v19_apply, val_main_v18_apply]
  have ebias : idx_main_v18 (idx_main_v19 (ix3 n b o)) = ix2 n o :=
    funext fun a => match a with | ⟨0, _⟩ => rfl | ⟨1, _⟩ => rfl
  rw [ebias, hb, ← lin_comm]
  refine congrArg (· + bias (ix1 o)) (Finset.sum_congr rfl fun k _ => ?_)
  have el : lidx_main_v16 (idx_main_v17 (ix3 n b o)) k = ix3 n o k :=
    funext fun a => match a with | ⟨0, _⟩ => rfl | ⟨1, _⟩ => rfl | ⟨2, _⟩ => rfl
  have er : ridx_main_v16 (idx_main_v17 (ix3 n b o)) k = ix2 b k :=
    funext fun a => match a with | ⟨0, _⟩ => rfl | ⟨1, _⟩ => rfl
  have em : idx_main_v7 (idx_main_v8 (ix3 n o k)) = ix2 o k :=
    funext fun a => match a with | ⟨0, _⟩ => rfl | ⟨1, _⟩ => rfl
  rw [el, er, val_main_v9_apply, hW, val_main_v8_apply, val_main_v7_apply, em]
  rfl

/-! ## The five slices of the stack -/

theorem slice0_at (b o : Fin 2048) :
    val_main_v22 (F := Ideal) x0 x1 x2 x3 x4 x5 x6 x7 x8 x9 x10 x11 x12 (ix2 b o) = val_main_v20 (F := Ideal) x0 x1 x2 x3 x4 x5 x6 x7 x8 x9 x10 x11 x12 (ix3 (0 : Fin 5) b o) := by
  rw [val_main_v22_apply, val_main_v21_apply]
  have hb : b.val < 2048 := b.isLt
  have ho : o.val < 2048 := o.isLt
  exact congrArg _ (funext fun a => Fin.ext (by
    match a with
    | ⟨0, _⟩ => rfl
    | ⟨1, _⟩ => show (b.val * 2048 + o.val) / 2048 % 2048 = b.val; omega
    | ⟨2, _⟩ => show (b.val * 2048 + o.val) % 2048 = o.val; omega))

theorem slice1_at (b o : Fin 2048) :
    val_main_v24 (F := Ideal) x0 x1 x2 x3 x4 x5 x6 x7 x8 x9 x10 x11 x12 (ix2 b o) = val_main_v20 (F := Ideal) x0 x1 x2 x3 x4 x5 x6 x7 x8 x9 x10 x11 x12 (ix3 (1 : Fin 5) b o) := by
  rw [val_main_v24_apply, val_main_v23_apply]
  have hb : b.val < 2048 := b.isLt
  have ho : o.val < 2048 := o.isLt
  exact congrArg _ (funext fun a => Fin.ext (by
    match a with
    | ⟨0, _⟩ => show 1 + 0 = 1; omega
    | ⟨1, _⟩ => show (b.val * 2048 + o.val) / 2048 % 2048 = b.val; omega
    | ⟨2, _⟩ => show (b.val * 2048 + o.val) % 2048 = o.val; omega))

theorem slice2_at (b o : Fin 2048) :
    val_main_v26 (F := Ideal) x0 x1 x2 x3 x4 x5 x6 x7 x8 x9 x10 x11 x12 (ix2 b o) = val_main_v20 (F := Ideal) x0 x1 x2 x3 x4 x5 x6 x7 x8 x9 x10 x11 x12 (ix3 (2 : Fin 5) b o) := by
  rw [val_main_v26_apply, val_main_v25_apply]
  have hb : b.val < 2048 := b.isLt
  have ho : o.val < 2048 := o.isLt
  exact congrArg _ (funext fun a => Fin.ext (by
    match a with
    | ⟨0, _⟩ => show 2 + 0 = 2; omega
    | ⟨1, _⟩ => show (b.val * 2048 + o.val) / 2048 % 2048 = b.val; omega
    | ⟨2, _⟩ => show (b.val * 2048 + o.val) % 2048 = o.val; omega))

theorem slice3_at (b o : Fin 2048) :
    val_main_v28 (F := Ideal) x0 x1 x2 x3 x4 x5 x6 x7 x8 x9 x10 x11 x12 (ix2 b o) = val_main_v20 (F := Ideal) x0 x1 x2 x3 x4 x5 x6 x7 x8 x9 x10 x11 x12 (ix3 (3 : Fin 5) b o) := by
  rw [val_main_v28_apply, val_main_v27_apply]
  have hb : b.val < 2048 := b.isLt
  have ho : o.val < 2048 := o.isLt
  exact congrArg _ (funext fun a => Fin.ext (by
    match a with
    | ⟨0, _⟩ => show 3 + 0 = 3; omega
    | ⟨1, _⟩ => show (b.val * 2048 + o.val) / 2048 % 2048 = b.val; omega
    | ⟨2, _⟩ => show (b.val * 2048 + o.val) % 2048 = o.val; omega))

theorem slice4_at (b o : Fin 2048) :
    val_main_v30 (F := Ideal) x0 x1 x2 x3 x4 x5 x6 x7 x8 x9 x10 x11 x12 (ix2 b o) = val_main_v20 (F := Ideal) x0 x1 x2 x3 x4 x5 x6 x7 x8 x9 x10 x11 x12 (ix3 (4 : Fin 5) b o) := by
  rw [val_main_v30_apply, val_main_v29_apply]
  have hb : b.val < 2048 := b.isLt
  have ho : o.val < 2048 := o.isLt
  exact congrArg _ (funext fun a => Fin.ext (by
    match a with
    | ⟨0, _⟩ => show 4 + 0 = 4; omega
    | ⟨1, _⟩ => show (b.val * 2048 + o.val) / 2048 % 2048 = b.val; omega
    | ⟨2, _⟩ => show (b.val * 2048 + o.val) % 2048 = o.val; omega))

/-! ## The two results -/

/-- The reference's new hidden state is the liquid-cell function of its arguments. -/
theorem newHidden_eq :
    val_main_v44 (F := Ideal) x0 x1 x2 x3 x4 x5 x6 x7 x8 x9 x10 x11 x12 = newHidden (val_main_v0 (F := Ideal) x0 x1) x2 x3 x4 x5 x6 x7 x8 x9 x10 := by
  funext i
  obtain ⟨b, o, rfl⟩ : ∃ (b o : Fin 2048), i = ix2 b o := ⟨i 0, i 1, eq_ix2 i⟩
  rw [val_main_v44_apply, val_main_v42_apply, val_main_v43_apply, val_main_v31_apply, val_main_v32_apply, val_main_v41_apply,
    val_main_v40_apply, val_main_cst_1_apply, val_main_v39_apply, val_main_v38_apply, val_main_cst_0_apply, val_main_v37_apply,
    val_main_v36_apply, val_main_cst_apply, val_main_v35_apply, val_main_v34_apply, val_main_v33_apply,
    slice0_at, slice1_at, slice2_at, slice3_at,
    layer_at x0 x1 x2 x3 x4 x5 x6 x7 x8 x9 x10 x11 x12 0 x3 x4 (stackW0 x3 x5 x7 x9 x11) (stackB0 x4 x6 x8 x10 x12),
    layer_at x0 x1 x2 x3 x4 x5 x6 x7 x8 x9 x10 x11 x12 1 x5 x6 (stackW1 x3 x5 x7 x9 x11) (stackB1 x4 x6 x8 x10 x12),
    layer_at x0 x1 x2 x3 x4 x5 x6 x7 x8 x9 x10 x11 x12 2 x7 x8 (stackW2 x3 x5 x7 x9 x11) (stackB2 x4 x6 x8 x10 x12),
    layer_at x0 x1 x2 x3 x4 x5 x6 x7 x8 x9 x10 x11 x12 3 x9 x10 (stackW3 x3 x5 x7 x9 x11) (stackB3 x4 x6 x8 x10 x12)]
  show Ideal.tanh _ * (one32 - Ideal.div one32 (one32 + Ideal.exp (-(_ + _)))) + Ideal.div one32 (one32 + Ideal.exp (-(_ + _))) * Ideal.tanh _ = _
  rw [logistic_spelled]
  rfl

/-- The reference's prediction is the fifth layer plus the new hidden state. -/
theorem prediction_eq :
    val_main_v45 (F := Ideal) x0 x1 x2 x3 x4 x5 x6 x7 x8 x9 x10 x11 x12 = prediction (val_main_v0 (F := Ideal) x0 x1) x2 x3 x4 x5 x6 x7 x8 x9 x10 x11 x12 := by
  funext i
  obtain ⟨b, o, rfl⟩ : ∃ (b o : Fin 2048), i = ix2 b o := ⟨i 0, i 1, eq_ix2 i⟩
  rw [val_main_v45_apply, slice4_at,
    layer_at x0 x1 x2 x3 x4 x5 x6 x7 x8 x9 x10 x11 x12 4 x11 x12 (stackW4 x3 x5 x7 x9 x11) (stackB4 x4 x6 x8 x10 x12), newHidden_eq]
  rfl

end Cert.ReferenceIdeal.RefValue

end
-- ==== Proof.lean ====
/-
  A liquid time-constant cell: five masked linear layers over the concatenated input `[x, hidden]`,
  two of them passed through tanh, two summed into a logistic gate, blended into the new hidden
  state, and the fifth added to it for the prediction.

  At the ideal instance the kernel computes, for batch row `b` and hidden unit `o`,
      lin_W b o = Σ_k xc[b,k] · (W[o,k] · mask[o,k]) + bias_W[o]     (k over the 2560 features),
      new_hidden[b,o] = tanh (lin_g) · (1 − σ) + σ · tanh (lin_h),   σ = logistic (lin_fg + lin_fh),
      y[b,o] = lin_p + new_hidden[b,o],
  sixteen blocks of 128 hidden units at a time, each block one matrix product per layer into a zero
  accumulator; the changes of float format on the way are the identity on extended reals. The
  reference stacks the five masked weights, contracts the stack with the input in one product
  whose terms are (W · mask) · xc, and spells the gate 1 / (1 + e^(−z)). The two sides differ by the
  order of the two factors in each term of the sums — multiplication of extended reals commutes, so
  no finiteness of the inputs is used — and by the spelling of the logistic function, which is that
  quotient by definition. Both programs concatenate `x` and `hidden` with the same host operation,
  so the concatenated input never has to be opened.

  The frames of the two kernel programs and the reference's run are the generated ones; no rewrite
  was applied when the kernel was idealized, so there is nothing to preserve.
-/
import proofs.«113862_j35175782154587_1_alg».proof.Defs
import proofs.«113862_j35175782154587_1_alg».proof.Proof.Gen.Kernel
import proofs.«113862_j35175782154587_1_alg».proof.Proof.Gen.Kernel.Skeleton
import proofs.«113862_j35175782154587_1_alg».proof.Proof.Gen.Kernel.Launch
import proofs.«113862_j35175782154587_1_alg».proof.Proof.Gen.Kernel.Points
import proofs.«113862_j35175782154587_1_alg».proof.Proof.Gen.Kernel.Frame
import proofs.«113862_j35175782154587_1_alg».proof.Proof.Gen.KernelIdeal
import proofs.«113862_j35175782154587_1_alg».proof.Proof.Gen.KernelIdeal.Skeleton
import proofs.«113862_j35175782154587_1_alg».proof.Proof.Gen.KernelIdeal.Launch
import proofs.«113862_j35175782154587_1_alg».proof.Proof.Gen.KernelIdeal.Points
import proofs.«113862_j35175782154587_1_alg».proof.Proof.Gen.KernelIdeal.Frame
import proofs.«113862_j35175782154587_1_alg».proof.Proof.Gen.ReferenceIdeal
import proofs.«113862_j35175782154587_1_alg».proof.Proof.Gen.Pre_finite_inputs
import proofs.«113862_j35175782154587_1_alg».proof.Proof.Gen.KernelIdeal.Value
import proofs.«113862_j35175782154587_1_alg».proof.Proof.Gen.ReferenceIdeal.Run
import proofs.«113862_j35175782154587_1_alg».proof.Proof.Gen.ReferenceIdeal.Read
import proofs.«113862_j35175782154587_1_alg».proof.Proof.CellSpec
import proofs.«113862_j35175782154587_1_alg».proof.Proof.KernelBlock
import proofs.«113862_j35175782154587_1_alg».proof.Proof.KernelArrays
import proofs.«113862_j35175782154587_1_alg».proof.Proof.RefCell
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the prediction and the new hidden state of the same liquid-cell functions
    of arguments that agree. -/
theorem algebraic : Cert.algebraic_KernelIdeal_ReferenceIdeal := by
  intro m ρ m' ρ' _ hagree
  refine ⟨fun c => Cert.KernelIdeal.Arrays.yOf m c, fun c => Cert.KernelIdeal.Arrays.nhOf m c, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12⟩ := hagree c
    rw [Cert.ReferenceIdeal.Read.val_main_v45_eq, Cert.ReferenceIdeal.RefValue.prediction_eq,
      h0, h1, h2, h3, h4, h5, h6, h7, h8, h9, h10, h11, h12]
    rfl
  · obtain ⟨h0, h1, h2, h3, h4, h5, h6, h7, h8, h9, h10, h11, h12⟩ := hagree c
    rw [Cert.ReferenceIdeal.Read.val_main_v44_eq, Cert.ReferenceIdeal.RefValue.newHidden_eq,
      h0, h1, h2, h3, h4, h5, h6, h7, h8, h9, h10]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
